-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel

variable [Facts]

def fn {F : FTy → Type} [FloatOps F] (main_arg0 : FVec F S16x64x64x64 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  main_v3
-- ==== Kernel.lean ====
abbrev S16x64x64x64 : Shape := ⟨4, ![16, 64, 64, 64]⟩
abbrev S65536x64 : Shape := ⟨2, ![65536, 64]⟩
abbrev S65536x2016 : Shape := ⟨2, ![65536, 2016]⟩
abbrev S1024x64 : Shape := ⟨2, ![1024, 64]⟩
abbrev S1024x2016 : Shape := ⟨2, ![1024, 2016]⟩
abbrev S1024x1 : Shape := ⟨2, ![1024, 1]⟩
abbrev S1024x63 : Shape := ⟨2, ![1024, 63]⟩
abbrev S1024x62 : Shape := ⟨2, ![1024, 62]⟩
abbrev S1024x3 : Shape := ⟨2, ![1024, 3]⟩
abbrev S1024x128 : Shape := ⟨2, ![1024, 128]⟩
abbrev S1024x58 : Shape := ⟨2, ![1024, 58]⟩
abbrev S1024x60 : Shape := ⟨2, ![1024, 60]⟩
abbrev S1024x10 : Shape := ⟨2, ![1024, 10]⟩
abbrev S1024x49 : Shape := ⟨2, ![1024, 49]⟩
abbrev S1024x21 : Shape := ⟨2, ![1024, 21]⟩
abbrev S1024x36 : Shape := ⟨2, ![1024, 36]⟩
abbrev S1024x56 : Shape := ⟨2, ![1024, 56]⟩
abbrev S1024x19 : Shape := ⟨2, ![1024, 19]⟩
abbrev S1024x54 : Shape := ⟨2, ![1024, 54]⟩
abbrev S1024x53 : Shape := ⟨2, ![1024, 53]⟩
abbrev S1024x2 : Shape := ⟨2, ![1024, 2]⟩
abbrev S1024x50 : Shape := ⟨2, ![1024, 50]⟩
abbrev S1024x51 : Shape := ⟨2, ![1024, 51]⟩
abbrev S1024x27 : Shape := ⟨2, ![1024, 27]⟩
abbrev S1024x23 : Shape := ⟨2, ![1024, 23]⟩
abbrev S1024x48 : Shape := ⟨2, ![1024, 48]⟩
abbrev S1024x8 : Shape := ⟨2, ![1024, 8]⟩
abbrev S1024x39 : Shape := ⟨2, ![1024, 39]⟩
abbrev S1024x46 : Shape := ⟨2, ![1024, 46]⟩
abbrev S1024x43 : Shape := ⟨2, ![1024, 43]⟩
abbrev S1024x44 : Shape := ⟨2, ![1024, 44]⟩
abbrev S1024x41 : Shape := ⟨2, ![1024, 41]⟩
abbrev S1024x40 : Shape := ⟨2, ![1024, 40]⟩
abbrev S1024x5 : Shape := ⟨2, ![1024, 5]⟩
abbrev S1024x33 : Shape := ⟨2, ![1024, 33]⟩
abbrev S1024x37 : Shape := ⟨2, ![1024, 37]⟩
abbrev S1024x22 : Shape := ⟨2, ![1024, 22]⟩
abbrev S1024x13 : Shape := ⟨2, ![1024, 13]⟩
abbrev S1024x34 : Shape := ⟨2, ![1024, 34]⟩
abbrev S1024x32 : Shape := ⟨2, ![1024, 32]⟩
abbrev S1024x16 : Shape := ⟨2, ![1024, 16]⟩
abbrev S1024x15 : Shape := ⟨2, ![1024, 15]⟩
abbrev S1024x30 : Shape := ⟨2, ![1024, 30]⟩
abbrev S1024x29 : Shape := ⟨2, ![1024, 29]⟩
abbrev S1024x28 : Shape := ⟨2, ![1024, 28]⟩
abbrev S1024x26 : Shape := ⟨2, ![1024, 26]⟩
abbrev S1024x25 : Shape := ⟨2, ![1024, 25]⟩
abbrev S1024x24 : Shape := ⟨2, ![1024, 24]⟩
abbrev S1024x7 : Shape := ⟨2, ![1024, 7]⟩
abbrev S1024x14 : Shape := ⟨2, ![1024, 14]⟩
abbrev S1024x20 : Shape := ⟨2, ![1024, 20]⟩
abbrev S1024x18 : Shape := ⟨2, ![1024, 18]⟩
abbrev S1024x17 : Shape := ⟨2, ![1024, 17]⟩
abbrev S1024x9 : Shape := ⟨2, ![1024, 9]⟩
abbrev S1024x12 : Shape := ⟨2, ![1024, 12]⟩
abbrev S1024x11 : Shape := ⟨2, ![1024, 11]⟩
abbrev S1024x6 : Shape := ⟨2, ![1024, 6]⟩
abbrev S1024x4 : Shape := ⟨2, ![1024, 4]⟩
abbrev S1024x96 : Shape := ⟨2, ![1024, 96]⟩
abbrev S16x64x64x2016 : Shape := ⟨4, ![16, 64, 64, 2016]⟩

abbrev nBuf : Space → Nat
  | .hbm => 4
  | .vmem => 4
  | .smem => 0
  | _ => 0

abbrev bufTy : (tb : Table) → Fin (tcTables nBuf tb) → BufTy
  | .hbm, ⟨0, _⟩ => ⟨S16x64x64x64, .f32⟩
  | .hbm, ⟨1, _⟩ => ⟨S65536x64, .f32⟩
  | .hbm, ⟨2, _⟩ => ⟨S65536x2016, .f32⟩
  | .hbm, ⟨3, _⟩ => ⟨S16x64x64x2016, .f32⟩
  | .local _ .vmem, ⟨0, _⟩ => ⟨S1024x64, .f32⟩
  | .local _ .vmem, ⟨1, _⟩ => ⟨S1024x64, .f32⟩
  | .local _ .vmem, ⟨2, _⟩ => ⟨S1024x2016, .f32⟩
  | .local _ .vmem, ⟨3, _⟩ => ⟨S1024x2016, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x64x64_S65536x64 : S16x64x64x64.ShapeCasts S65536x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S1024x64_o0_0_S1024x1 : S1024x64.Slices ![0, 0] S1024x1
  broadcasts_S1024x1_S1024x64 : S1024x1.Broadcasts S1024x64
  slices_S1024x64_o0_1_S1024x63 : S1024x64.Slices ![0, 1] S1024x63
  slices_S1024x64_o0_1_S1024x1 : S1024x64.Slices ![0, 1] S1024x1
  slices_S1024x64_o0_2_S1024x62 : S1024x64.Slices ![0, 2] S1024x62
  slices_S1024x64_o0_2_S1024x1 : S1024x64.Slices ![0, 2] S1024x1
  slices_S1024x64_o0_3_S1024x3 : S1024x64.Slices ![0, 3] S1024x3
  concatenates_S1024x63_S1024x62_S1024x3_S1024x128_d1 : Shape.Concatenates [S1024x63, S1024x62, S1024x3] S1024x128 1
  inb_S1024x2016_S1024x128_0_0 : ∀ a, (![0, 0] : Fin 2 → Nat) a + S1024x128.size a ≤ S1024x2016.size a
  h_S1024x128 : 0 < S1024x128.numel
  slices_S1024x64_o0_6_S1024x58 : S1024x64.Slices ![0, 6] S1024x58
  slices_S1024x64_o0_3_S1024x1 : S1024x64.Slices ![0, 3] S1024x1
  slices_S1024x64_o0_4_S1024x60 : S1024x64.Slices ![0, 4] S1024x60
  slices_S1024x64_o0_4_S1024x1 : S1024x64.Slices ![0, 4] S1024x1
  slices_S1024x64_o0_5_S1024x10 : S1024x64.Slices ![0, 5] S1024x10
  concatenates_S1024x58_S1024x60_S1024x10_S1024x128_d1 : Shape.Concatenates [S1024x58, S1024x60, S1024x10] S1024x128 1
  inb_S1024x2016_S1024x128_0_128 : ∀ a, (![0, 128] : Fin 2 → Nat) a + S1024x128.size a ≤ S1024x2016.size a
  slices_S1024x64_o0_15_S1024x49 : S1024x64.Slices ![0, 15] S1024x49
  slices_S1024x64_o0_5_S1024x1 : S1024x64.Slices ![0, 5] S1024x1
  slices_S1024x64_o0_6_S1024x1 : S1024x64.Slices ![0, 6] S1024x1
  slices_S1024x64_o0_7_S1024x21 : S1024x64.Slices ![0, 7] S1024x21
  concatenates_S1024x49_S1024x58_S1024x21_S1024x128_d1 : Shape.Concatenates [S1024x49, S1024x58, S1024x21] S1024x128 1
  inb_S1024x2016_S1024x128_0_256 : ∀ a, (![0, 256] : Fin 2 → Nat) a + S1024x128.size a ≤ S1024x2016.size a
  slices_S1024x64_o0_28_S1024x36 : S1024x64.Slices ![0, 28] S1024x36
  slices_S1024x64_o0_7_S1024x1 : S1024x64.Slices ![0, 7] S1024x1
  slices_S1024x64_o0_8_S1024x56 : S1024x64.Slices ![0, 8] S1024x56
  slices_S1024x64_o0_8_S1024x1 : S1024x64.Slices ![0, 8] S1024x1
  slices_S1024x64_o0_9_S1024x36 : S1024x64.Slices ![0, 9] S1024x36
  concatenates_S1024x36_S1024x56_S1024x36_S1024x128_d1 : Shape.Concatenates [S1024x36, S1024x56, S1024x36] S1024x128 1
  inb_S1024x2016_S1024x128_0_384 : ∀ a, (![0, 384] : Fin 2 → Nat) a + S1024x128.size a ≤ S1024x2016.size a
  slices_S1024x64_o0_45_S1024x19 : S1024x64.Slices ![0, 45] S1024x19
  slices_S1024x64_o0_9_S1024x1 : S1024x64.Slices ![0, 9] S1024x1
  slices_S1024x64_o0_10_S1024x54 : S1024x64.Slices ![0, 10] S1024x54
  slices_S1024x64_o0_10_S1024x1 : S1024x64.Slices ![0, 10] S1024x1
  slices_S1024x64_o0_11_S1024x53 : S1024x64.Slices ![0, 11] S1024x53
  slices_S1024x64_o0_11_S1024x1 : S1024x64.Slices ![0, 11] S1024x1
  slices_S1024x64_o0_12_S1024x2 : S1024x64.Slices ![0, 12] S1024x2
  concatenates_S1024x19_S1024x54_S1024x53_S1024x2_S1024x128_d1 : Shape.Concatenates [S1024x19, S1024x54, S1024x53, S1024x2] S1024x128 1
  inb_S1024x2016_S1024x128_0_512 : ∀ a, (![0, 512] : Fin 2 → Nat) a + S1024x128.size a ≤ S1024x2016.size a
  slices_S1024x64_o0_14_S1024x50 : S1024x64.Slices ![0, 14] S1024x50
  slices_S1024x64_o0_12_S1024x1 : S1024x64.Slices ![0, 12] S1024x1
  slices_S1024x64_o0_13_S1024x51 : S1024x64.Slices ![0, 13] S1024x51
  slices_S1024x64_o0_13_S1024x1 : S1024x64.Slices ![0, 13] S1024x1
  slices_S1024x64_o0_14_S1024x27 : S1024x64.Slices ![0, 14] S1024x27
  concatenates_S1024x50_S1024x51_S1024x27_S1024x128_d1 : Shape.Concatenates [S1024x50, S1024x51, S1024x27] S1024x128 1
  inb_S1024x2016_S1024x128_0_640 : ∀ a, (![0, 640] : Fin 2 → Nat) a + S1024x128.size a ≤ S1024x2016.size a
  slices_S1024x64_o0_41_S1024x23 : S1024x64.Slices ![0, 41] S1024x23
  slices_S1024x64_o0_14_S1024x1 : S1024x64.Slices ![0, 14] S1024x1
  slices_S1024x64_o0_15_S1024x1 : S1024x64.Slices ![0, 15] S1024x1
  slices_S1024x64_o0_16_S1024x48 : S1024x64.Slices ![0, 16] S1024x48
  slices_S1024x64_o0_16_S1024x1 : S1024x64.Slices ![0, 16] S1024x1
  slices_S1024x64_o0_17_S1024x8 : S1024x64.Slices ![0, 17] S1024x8
  concatenates_S1024x23_S1024x49_S1024x48_S1024x8_S1024x128_d1 : Shape.Concatenates [S1024x23, S1024x49, S1024x48, S1024x8] S1024x128 1
  inb_S1024x2016_S1024x128_0_768 : ∀ a, (![0, 768] : Fin 2 → Nat) a + S1024x128.size a ≤ S1024x2016.size a
  slices_S1024x64_o0_25_S1024x39 : S1024x64.Slices ![0, 25] S1024x39
  slices_S1024x64_o0_17_S1024x1 : S1024x64.Slices ![0, 17] S1024x1
  slices_S1024x64_o0_18_S1024x46 : S1024x64.Slices ![0, 18] S1024x46
  slices_S1024x64_o0_18_S1024x1 : S1024x64.Slices ![0, 18] S1024x1
  slices_S1024x64_o0_19_S1024x43 : S1024x64.Slices ![0, 19] S1024x43
  concatenates_S1024x39_S1024x46_S1024x43_S1024x128_d1 : Shape.Concatenates [S1024x39, S1024x46, S1024x43] S1024x128 1
  inb_S1024x2016_S1024x128_0_896 : ∀ a, (![0, 896] : Fin 2 → Nat) a + S1024x128.size a ≤ S1024x2016.size a
  slices_S1024x64_o0_62_S1024x2 : S1024x64.Slices ![0, 62] S1024x2
  slices_S1024x64_o0_19_S1024x1 : S1024x64.Slices ![0, 19] S1024x1
  slices_S1024x64_o0_20_S1024x44 : S1024x64.Slices ![0, 20] S1024x44
  slices_S1024x64_o0_20_S1024x1 : S1024x64.Slices ![0, 20] S1024x1
  slices_S1024x64_o0_21_S1024x43 : S1024x64.Slices ![0, 21] S1024x43
  slices_S1024x64_o0_21_S1024x1 : S1024x64.Slices ![0, 21] S1024x1
  slices_S1024x64_o0_22_S1024x39 : S1024x64.Slices ![0, 22] S1024x39
  concatenates_S1024x2_S1024x44_S1024x43_S1024x39_S1024x128_d1 : Shape.Concatenates [S1024x2, S1024x44, S1024x43, S1024x39] S1024x128 1
  inb_S1024x2016_S1024x128_0_1024 : ∀ a, (![0, 1024] : Fin 2 → Nat) a + S1024x128.size a ≤ S1024x2016.size a
  slices_S1024x64_o0_61_S1024x3 : S1024x64.Slices ![0, 61] S1024x3
  slices_S1024x64_o0_22_S1024x1 : S1024x64.Slices ![0, 22] S1024x1
  slices_S1024x64_o0_23_S1024x41 : S1024x64.Slices ![0, 23] S1024x41
  slices_S1024x64_o0_23_S1024x1 : S1024x64.Slices ![0, 23] S1024x1
  slices_S1024x64_o0_24_S1024x40 : S1024x64.Slices ![0, 24] S1024x40
  slices_S1024x64_o0_24_S1024x1 : S1024x64.Slices ![0, 24] S1024x1
  slices_S1024x64_o0_25_S1024x1 : S1024x64.Slices ![0, 25] S1024x1
  slices_S1024x64_o0_26_S1024x5 : S1024x64.Slices ![0, 26] S1024x5
  concatenates_S1024x3_S1024x41_S1024x40_S1024x39_S1024x5_S1024x128_d1 : Shape.Concatenates [S1024x3, S1024x41, S1024x40, S1024x39, S1024x5] S1024x128 1
  inb_S1024x2016_S1024x128_0_1152 : ∀ a, (![0, 1152] : Fin 2 → Nat) a + S1024x128.size a ≤ S1024x2016.size a
  slices_S1024x64_o0_31_S1024x33 : S1024x64.Slices ![0, 31] S1024x33
  slices_S1024x64_o0_26_S1024x1 : S1024x64.Slices ![0, 26] S1024x1
  slices_S1024x64_o0_27_S1024x37 : S1024x64.Slices ![0, 27] S1024x37
  slices_S1024x64_o0_27_S1024x1 : S1024x64.Slices ![0, 27] S1024x1
  slices_S1024x64_o0_28_S1024x1 : S1024x64.Slices ![0, 28] S1024x1
  slices_S1024x64_o0_29_S1024x22 : S1024x64.Slices ![0, 29] S1024x22
  concatenates_S1024x33_S1024x37_S1024x36_S1024x22_S1024x128_d1 : Shape.Concatenates [S1024x33, S1024x37, S1024x36, S1024x22] S1024x128 1
  inb_S1024x2016_S1024x128_0_1280 : ∀ a, (![0, 1280] : Fin 2 → Nat) a + S1024x128.size a ≤ S1024x2016.size a
  slices_S1024x64_o0_51_S1024x13 : S1024x64.Slices ![0, 51] S1024x13
  slices_S1024x64_o0_29_S1024x1 : S1024x64.Slices ![0, 29] S1024x1
  slices_S1024x64_o0_30_S1024x34 : S1024x64.Slices ![0, 30] S1024x34
  slices_S1024x64_o0_30_S1024x1 : S1024x64.Slices ![0, 30] S1024x1
  slices_S1024x64_o0_31_S1024x1 : S1024x64.Slices ![0, 31] S1024x1
  slices_S1024x64_o0_32_S1024x32 : S1024x64.Slices ![0, 32] S1024x32
  slices_S1024x64_o0_32_S1024x1 : S1024x64.Slices ![0, 32] S1024x1
  slices_S1024x64_o0_33_S1024x16 : S1024x64.Slices ![0, 33] S1024x16
  concatenates_S1024x13_S1024x34_S1024x33_S1024x32_S1024x16_S1024x128_d1 : Shape.Concatenates [S1024x13, S1024x34, S1024x33, S1024x32, S1024x16] S1024x128 1
  inb_S1024x2016_S1024x128_0_1408 : ∀ a, (![0, 1408] : Fin 2 → Nat) a + S1024x128.size a ≤ S1024x2016.size a
  slices_S1024x64_o0_49_S1024x15 : S1024x64.Slices ![0, 49] S1024x15
  slices_S1024x64_o0_33_S1024x1 : S1024x64.Slices ![0, 33] S1024x1
  slices_S1024x64_o0_34_S1024x30 : S1024x64.Slices ![0, 34] S1024x30
  slices_S1024x64_o0_34_S1024x1 : S1024x64.Slices ![0, 34] S1024x1
  slices_S1024x64_o0_35_S1024x29 : S1024x64.Slices ![0, 35] S1024x29
  slices_S1024x64_o0_35_S1024x1 : S1024x64.Slices ![0, 35] S1024x1
  slices_S1024x64_o0_36_S1024x28 : S1024x64.Slices ![0, 36] S1024x28
  slices_S1024x64_o0_36_S1024x1 : S1024x64.Slices ![0, 36] S1024x1
  slices_S1024x64_o0_37_S1024x26 : S1024x64.Slices ![0, 37] S1024x26
  concatenates_S1024x15_S1024x30_S1024x29_S1024x28_S1024x26_S1024x128_d1 : Shape.Concatenates [S1024x15, S1024x30, S1024x29, S1024x28, S1024x26] S1024x128 1
  inb_S1024x2016_S1024x128_0_1536 : ∀ a, (![0, 1536] : Fin 2 → Nat) a + S1024x128.size a ≤ S1024x2016.size a
  slices_S1024x64_o0_63_S1024x1 : S1024x64.Slices ![0, 63] S1024x1
  slices_S1024x64_o0_37_S1024x1 : S1024x64.Slices ![0, 37] S1024x1
  slices_S1024x64_o0_38_S1024x26 : S1024x64.Slices ![0, 38] S1024x26
  slices_S1024x64_o0_38_S1024x1 : S1024x64.Slices ![0, 38] S1024x1
  slices_S1024x64_o0_39_S1024x25 : S1024x64.Slices ![0, 39] S1024x25
  slices_S1024x64_o0_39_S1024x1 : S1024x64.Slices ![0, 39] S1024x1
  slices_S1024x64_o0_40_S1024x24 : S1024x64.Slices ![0, 40] S1024x24
  slices_S1024x64_o0_40_S1024x1 : S1024x64.Slices ![0, 40] S1024x1
  slices_S1024x64_o0_41_S1024x1 : S1024x64.Slices ![0, 41] S1024x1
  slices_S1024x64_o0_42_S1024x22 : S1024x64.Slices ![0, 42] S1024x22
  slices_S1024x64_o0_42_S1024x1 : S1024x64.Slices ![0, 42] S1024x1
  slices_S1024x64_o0_43_S1024x7 : S1024x64.Slices ![0, 43] S1024x7
  concatenates_S1024x1_S1024x26_S1024x25_S1024x24_S1024x23_S1024x22_S1024x7_S1024x128_d1 : Shape.Concatenates [S1024x1, S1024x26, S1024x25, S1024x24, S1024x23, S1024x22, S1024x7] S1024x128 1
  inb_S1024x2016_S1024x128_0_1664 : ∀ a, (![0, 1664] : Fin 2 → Nat) a + S1024x128.size a ≤ S1024x2016.size a
  slices_S1024x64_o0_50_S1024x14 : S1024x64.Slices ![0, 50] S1024x14
  slices_S1024x64_o0_43_S1024x1 : S1024x64.Slices ![0, 43] S1024x1
  slices_S1024x64_o0_44_S1024x20 : S1024x64.Slices ![0, 44] S1024x20
  slices_S1024x64_o0_44_S1024x1 : S1024x64.Slices ![0, 44] S1024x1
  slices_S1024x64_o0_45_S1024x1 : S1024x64.Slices ![0, 45] S1024x1
  slices_S1024x64_o0_46_S1024x18 : S1024x64.Slices ![0, 46] S1024x18
  slices_S1024x64_o0_46_S1024x1 : S1024x64.Slices ![0, 46] S1024x1
  slices_S1024x64_o0_47_S1024x17 : S1024x64.Slices ![0, 47] S1024x17
  slices_S1024x64_o0_47_S1024x1 : S1024x64.Slices ![0, 47] S1024x1
  slices_S1024x64_o0_48_S1024x16 : S1024x64.Slices ![0, 48] S1024x16
  slices_S1024x64_o0_48_S1024x1 : S1024x64.Slices ![0, 48] S1024x1
  slices_S1024x64_o0_49_S1024x1 : S1024x64.Slices ![0, 49] S1024x1
  slices_S1024x64_o0_50_S1024x9 : S1024x64.Slices ![0, 50] S1024x9
  concatenates_S1024x14_S1024x20_S1024x19_S1024x18_S1024x17_S1024x16_S1024x15_S1024x9_S1024x128_d1 : Shape.Concatenates [S1024x14, S1024x20, S1024x19, S1024x18, S1024x17, S1024x16, S1024x15, S1024x9] S1024x128 1
  inb_S1024x2016_S1024x128_0_1792 : ∀ a, (![0, 1792] : Fin 2 → Nat) a + S1024x128.size a ≤ S1024x2016.size a
  slices_S1024x64_o0_59_S1024x5 : S1024x64.Slices ![0, 59] S1024x5
  slices_S1024x64_o0_50_S1024x1 : S1024x64.Slices ![0, 50] S1024x1
  slices_S1024x64_o0_51_S1024x1 : S1024x64.Slices ![0, 51] S1024x1
  slices_S1024x64_o0_52_S1024x12 : S1024x64.Slices ![0, 52] S1024x12
  slices_S1024x64_o0_52_S1024x1 : S1024x64.Slices ![0, 52] S1024x1
  slices_S1024x64_o0_53_S1024x11 : S1024x64.Slices ![0, 53] S1024x11
  slices_S1024x64_o0_53_S1024x1 : S1024x64.Slices ![0, 53] S1024x1
  slices_S1024x64_o0_54_S1024x10 : S1024x64.Slices ![0, 54] S1024x10
  slices_S1024x64_o0_54_S1024x1 : S1024x64.Slices ![0, 54] S1024x1
  slices_S1024x64_o0_55_S1024x9 : S1024x64.Slices ![0, 55] S1024x9
  slices_S1024x64_o0_55_S1024x1 : S1024x64.Slices ![0, 55] S1024x1
  slices_S1024x64_o0_56_S1024x8 : S1024x64.Slices ![0, 56] S1024x8
  slices_S1024x64_o0_56_S1024x1 : S1024x64.Slices ![0, 56] S1024x1
  slices_S1024x64_o0_57_S1024x7 : S1024x64.Slices ![0, 57] S1024x7
  slices_S1024x64_o0_57_S1024x1 : S1024x64.Slices ![0, 57] S1024x1
  slices_S1024x64_o0_58_S1024x6 : S1024x64.Slices ![0, 58] S1024x6
  slices_S1024x64_o0_58_S1024x1 : S1024x64.Slices ![0, 58] S1024x1
  slices_S1024x64_o0_59_S1024x1 : S1024x64.Slices ![0, 59] S1024x1
  slices_S1024x64_o0_60_S1024x4 : S1024x64.Slices ![0, 60] S1024x4
  slices_S1024x64_o0_60_S1024x1 : S1024x64.Slices ![0, 60] S1024x1
  slices_S1024x64_o0_61_S1024x1 : S1024x64.Slices ![0, 61] S1024x1
  slices_S1024x64_o0_62_S1024x1 : S1024x64.Slices ![0, 62] S1024x1
  concatenates_S1024x5_S1024x13_S1024x12_S1024x11_S1024x10_S1024x9_S1024x8_S1024x7_S1024x6_S1024x5_S1024x4_S1024x3_S1024x2_S1024x1_S1024x96_d1 : Shape.Concatenates [S1024x5, S1024x13, S1024x12, S1024x11, S1024x10, S1024x9, S1024x8, S1024x7, S1024x6, S1024x5, S1024x4, S1024x3, S1024x2, S1024x1] S1024x96 1
  inb_S1024x2016_S1024x96_0_1920 : ∀ a, (![0, 1920] : Fin 2 → Nat) a + S1024x96.size a ≤ S1024x2016.size a
  h_S1024x96 : 0 < S1024x96.numel
  shapeCasts_S65536x2016_S16x64x64x2016 : S65536x2016.ShapeCasts S16x64x64x2016
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2016.size a ≤ S65536x2016.size a
  hwx0_1 : ∀ i : grid0.Coords, EltTy.bits .f32 = 32 ∨ (Rect.block (s := S65536x2016) S1024x2016.size (cc0_transform_1 i) (hinb0_1 i)).WholeWords (EltTy.packing .f32)

variable [Facts₀]

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x64x64 : Shape := ⟨4, ![16, 64, 64, 64]⟩
abbrev S2016 : Shape := ⟨1, ![2016]⟩
abbrev S_ : Shape := ⟨0, ![]⟩
abbrev S2016x1 : Shape := ⟨2, ![2016, 1]⟩
abbrev S16x64x64x2016 : Shape := ⟨4, ![16, 64, 64, 2016]⟩

abbrev nBuf : Space → Nat
  | .hbm => 22
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S2016, .i32⟩
  | .hbm, ⟨2, _⟩ => ⟨S2016, .i32⟩
  | .hbm, ⟨3, _⟩ => ⟨S_, .i32⟩
  | .hbm, ⟨4, _⟩ => ⟨S2016, .i32⟩
  | .hbm, ⟨5, _⟩ => ⟨S2016, .i1⟩
  | .hbm, ⟨6, _⟩ => ⟨S_, .i32⟩
  | .hbm, ⟨7, _⟩ => ⟨S2016, .i32⟩
  | .hbm, ⟨8, _⟩ => ⟨S2016, .i32⟩
  | .hbm, ⟨9, _⟩ => ⟨S2016, .i32⟩
  | .hbm, ⟨10, _⟩ => ⟨S2016x1, .i32⟩
  | .hbm, ⟨11, _⟩ => ⟨S16x64x64x2016, .f32⟩
  | .hbm, ⟨12, _⟩ => ⟨S_, .i32⟩
  | .hbm, ⟨13, _⟩ => ⟨S2016, .i32⟩
  | .hbm, ⟨14, _⟩ => ⟨S2016, .i1⟩
  | .hbm, ⟨15, _⟩ => ⟨S_, .i32⟩
  | .hbm, ⟨16, _⟩ => ⟨S2016, .i32⟩
  | .hbm, ⟨17, _⟩ => ⟨S2016, .i32⟩
  | .hbm, ⟨18, _⟩ => ⟨S2016, .i32⟩
  | .hbm, ⟨19, _⟩ => ⟨S2016x1, .i32⟩
  | .hbm, ⟨20, _⟩ => ⟨S16x64x64x2016, .f32⟩
  | .hbm, ⟨21, _⟩ => ⟨S16x64x64x2016, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_c_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2016 : S_.BroadcastsInDim S2016 (![] : Fin 0 → Fin S2016.rank)
  bcast_S2016_S2016x1_0 : S2016.BroadcastsInDim S2016x1 (![0] : Fin 1 → Fin S2016x1.rank)
  gather_S16x64x64x64_S2016x1_S16x64x64x2016_012_3_n_n_3_1_1664641_wf : GatherDims.WF S16x64x64x64 S2016x1 S16x64x64x2016 [0, 1, 2] [3] [] [3] [] 1 ![16, 64, 64, 1]

variable [Facts₀]

def gather_S16x64x64x64_S2016x1_S16x64x64x2016_012_3_n_n_3_1_1664641 : GatherDims S16x64x64x64 S2016x1 S16x64x64x2016 where
  offsetDims := [0, 1, 2]
  collapsedSliceDims := [3]
  operandBatchingDims := []
  startIndicesBatchingDims := []
  startIndexMap := [3]
  indexVectorDim := 1
  sliceSizes := ![16, 64, 64, 1]
  wf := gather_S16x64x64x64_S2016x1_S16x64x64x2016_012_3_n_n_3_1_1664641_wf

class Facts : Prop extends Facts₀ where

variable [Facts]
-- ==== Proof.Pairs.lean ====
/-
  The pair tables and the specification.

  The reference multiplies, for each output channel `k < 2016`, the input channels `II[k]` and `JJ[k]`, the
  strict upper-triangular pairs `(i, j)`, `i < j < 64`, listed row by row. Both index tables are literal
  constants of the reference program; `fst k` and `snd k` read them as numbers. The specification `Spec x` is the
  array `x[b, h, w, fst k] * x[b, h, w, snd k]`: what both programs are shown to compute.
-/
import proofs.«426617_j8375186227508_3_alg».proof.ReferenceIdeal
import Idealize.ShloMosaic.PureOps.Ideal
import Idealize.ShloMosaic.Lib.ValueIdx

noncomputable section

namespace Cert.Pairs

open Idealize.ShloMosaic Idealize.ShloMosaic.ValueIdx

/-- The smaller channel of pair `k`: entry `k` of the reference's first index table, as a number. -/
def fst (k : Nat) : Nat := (Cert.ReferenceIdeal.lit0t k).toNat

/-- The larger channel of pair `k`: entry `k` of the reference's second index table, as a number. -/
def snd (k : Nat) : Nat := (Cert.ReferenceIdeal.lit1t k).toNat

/-- Every entry of the first table is a channel. -/
theorem fst_lt : ∀ k : Fin 2016, fst k.val < 64 := by decide +kernel

/-- Every entry of the second table is a channel. -/
theorem snd_lt : ∀ k : Fin 2016, snd k.val < 64 := by decide +kernel

/-- Channel `fst k` as an index of the channel axis. -/
def fstF (k : Fin 2016) : Fin 64 := ⟨fst k.val, fst_lt k⟩

/-- Channel `snd k` as an index of the channel axis. -/
def sndF (k : Fin 2016) : Fin 64 := ⟨snd k.val, snd_lt k⟩

/-- The specification: output channel `k` is the product of input channels `fst k` and `snd k`, at every
    position `(b, h, w)`. -/
def Spec (x : (⟨4, ![16, 64, 64, 64]⟩ : Shape).Idx → EReal) : (⟨4, ![16, 64, 64, 2016]⟩ : Shape).Idx → EReal :=
  fun j =>
    x (ix4 (⟨(j 0).val, (j 0).isLt⟩ : Fin 16) (⟨(j 1).val, (j 1).isLt⟩ : Fin 64) (⟨(j 2).val, (j 2).isLt⟩ : Fin 64)
        (fstF ⟨(j 3).val, (j 3).isLt⟩))
    * x (ix4 (⟨(j 0).val, (j 0).isLt⟩ : Fin 16) (⟨(j 1).val, (j 1).isLt⟩ : Fin 64) (⟨(j 2).val, (j 2).isLt⟩ : Fin 64)
        (sndF ⟨(j 3).val, (j 3).isLt⟩))

/-- The same on the flattened arrays: row `n` of the `[65536, 64]` view against row `n` of the `[65536, 2016]` one. -/
def Spec2 (x : (⟨2, ![65536, 64]⟩ : Shape).Idx → EReal) : (⟨2, ![65536, 2016]⟩ : Shape).Idx → EReal :=
  fun j =>
    x (ix2 (⟨(j 0).val, (j 0).isLt⟩ : Fin 65536) (fstF ⟨(j 1).val, (j 1).isLt⟩))
    * x (ix2 (⟨(j 0).val, (j 0).isLt⟩ : Fin 65536) (sndF ⟨(j 1).val, (j 1).isLt⟩))

/-- The same on one block of 1024 rows. -/
def SpecB (x : (⟨2, ![1024, 64]⟩ : Shape).Idx → EReal) : (⟨2, ![1024, 2016]⟩ : Shape).Idx → EReal :=
  fun j =>
    x (ix2 (⟨(j 0).val, (j 0).isLt⟩ : Fin 1024) (fstF ⟨(j 1).val, (j 1).isLt⟩))
    * x (ix2 (⟨(j 0).val, (j 0).isLt⟩ : Fin 1024) (sndF ⟨(j 1).val, (j 1).isLt⟩))

end Cert.Pairs

end
-- ==== Proof.Strip.lean ====
/-
  One strip of the triangular product, read at an index.

  The kernel forms, for a fixed channel `i`, the product of column `i` (cut out, then broadcast along the
  channels) with the whole block, and cuts the columns `cs, cs + 1, …` out of it. At row `r` and position `q` of
  the cut this is `v[r, i] * v[r, cs + q]`.
-/
import Idealize.ShloMosaic.PureOps.Ideal
import Idealize.ShloMosaic.Lib.ValueIdx
import Idealize.ShloMosaic.Lib.ValueLayout
import Idealize.ShloMosaic.Lib.Pipeline.Value

noncomputable section

namespace Cert.Strip

open Idealize.ShloMosaic Idealize.ShloMosaic.ValueIdx

/-- Column `i` of a `[1024, 64]` block, broadcast back along the channels, reads `v[r, i]` at every `(r, e)`. -/
theorem column_apply (i : Nat) (v : (⟨2, ![1024, 64]⟩ : Shape).Idx → EReal)
    (h1 : (⟨2, ![1024, 64]⟩ : Shape).Slices ![0, i] ⟨2, ![1024, 1]⟩)
    (hb : (⟨2, ![1024, 1]⟩ : Shape).Broadcasts ⟨2, ![1024, 64]⟩)
    (r : Fin 1024) (e ki : Fin 64) (hki : ki.val = i) :
    broadcastTo ⟨2, ![1024, 64]⟩ (extractStridedSlice ⟨2, ![1024, 1]⟩ ![0, i] v h1) hb (ix2 r e) = v (ix2 r ki) := by
  rw [broadcastTo_apply _ hb (ix2 r e) (ix2 r (0 : Fin 1)) (fun a => by
    match a with
    | ⟨0, _⟩ => rfl
    | ⟨1, _⟩ => rfl)]
  exact slice2_axis1_apply i v h1 r 0 ki (by simpa using hki)

/-- The strip of channel `i` from column `cs` on, at `(r, q)`: `v[r, i] * v[r, cs + q]`. -/
theorem strip_apply {w : Nat} (i cs : Nat) (v : FVec Ideal ⟨2, ![1024, 64]⟩ .f32)
    (h1 : (⟨2, ![1024, 64]⟩ : Shape).Slices ![0, i] ⟨2, ![1024, 1]⟩)
    (hb : (⟨2, ![1024, 1]⟩ : Shape).Broadcasts ⟨2, ![1024, 64]⟩)
    (h2 : (⟨2, ![1024, 64]⟩ : Shape).Slices ![0, cs] ⟨2, ![1024, w]⟩)
    (r : Fin 1024) (q : Fin w) (ki kj : Fin 64) (hki : ki.val = i) (hkj : kj.val = cs + q.val) :
    extractStridedSlice ⟨2, ![1024, w]⟩ ![0, cs]
        (mulf (broadcastTo ⟨2, ![1024, 64]⟩ (extractStridedSlice ⟨2, ![1024, 1]⟩ ![0, i] v h1) hb) v) h2 (ix2 r q)
      = v (ix2 r ki) * v (ix2 r kj) := by
  rw [slice2_axis1_apply cs _ h2 r q kj hkj, mulf_apply, column_apply i v h1 hb r kj ki hki]

/-- A concatenation of strips along the channels, read at `(r, q)`: when `q` falls in the span of piece `k` — the
    strip of channel `i` from column `cs` on, laid at positions `pre, …, pre + w - 1` — the entry is
    `v[r, i] * v[r, cs + (q - pre)]`. -/
theorem piece_apply {W : Nat} (xs : List ((s : Shape) × (s.Idx → EReal)))
    (h : Shape.Concatenates (xs.map (·.1)) ⟨2, ![1024, W]⟩ 1) (r : Fin 1024) (q : Fin W)
    (k : Nat) (hk : k < xs.length) (w i cs : Nat) (v : FVec Ideal ⟨2, ![1024, 64]⟩ .f32)
    (h1 : (⟨2, ![1024, 64]⟩ : Shape).Slices ![0, i] ⟨2, ![1024, 1]⟩)
    (hb : (⟨2, ![1024, 1]⟩ : Shape).Broadcasts ⟨2, ![1024, 64]⟩)
    (h2 : (⟨2, ![1024, 64]⟩ : Shape).Slices ![0, cs] ⟨2, ![1024, w]⟩)
    (hxk : xs[k] = ⟨⟨2, ![1024, w]⟩, extractStridedSlice ⟨2, ![1024, w]⟩ ![0, cs]
        (mulf (broadcastTo ⟨2, ![1024, 64]⟩ (extractStridedSlice ⟨2, ![1024, 1]⟩ ![0, i] v h1) hb) v) h2⟩)
    (pre : Nat)
    (hpre : (((xs.take k).map (·.1)).map fun s : Shape =>
        if h : s.rank = (⟨2, ![1024, W]⟩ : Shape).rank then s.size ((1 : Fin (⟨2, ![1024, W]⟩ : Shape).rank).cast h.symm) else 0).sum = pre)
    (hlo : pre ≤ q.val) (hhi : q.val < pre + w)
    (ki kj : Fin 64) (hki : ki.val = i) (hkj : kj.val = cs + (q.val - pre)) :
    concatenate ⟨2, ![1024, W]⟩ 1 xs h (ix2 r q) = v (ix2 r ki) * v (ix2 r kj) := by
  refine Eq.trans (concatenate_apply_piece (1 : Fin (⟨2, ![1024, W]⟩ : Shape).rank) xs h (ix2 r q) k hk _ _ hxk rfl pre hpre
    (ix2 r (⟨q.val - pre, by omega⟩ : Fin w)) (fun b hb => by
      match b with
      | ⟨0, _⟩ => rfl
      | ⟨1, _⟩ => exact absurd rfl hb) (by show pre + (q.val - pre) = q.val; omega)) ?_
  exact strip_apply i cs v h1 hb h2 r _ ki kj hki hkj

end Cert.Strip

end
-- ==== Proof.ChunkBase.lean ====
/-
  What the chunk lemmas share: the loaded block passes through an identity reshape, and the block specification at
  explicit coordinates is the product of the two paired channels.
-/
import proofs.«426617_j8375186227508_3_alg».proof.Proof.Gen.KernelIdeal.Skeleton
import proofs.«426617_j8375186227508_3_alg».proof.Proof.Pairs
import proofs.«426617_j8375186227508_3_alg».proof.Proof.Strip

noncomputable section

namespace Cert.KernelIdeal.Chunks

open Idealize.ShloMosaic Idealize.ShloMosaic.ValueIdx
open Cert.KernelIdeal Cert.KernelIdeal.Gen Cert.Pairs Cert.Strip

/-- The kernel's first operation reshapes the loaded `[1024, 64]` block to its own shape: the identity. -/
theorem pay2_eq (v0 : Vec Ideal S1024x64 .f32) : k0_pay2 (F := Ideal) v0 = v0 := by
  unfold k0_pay2
  exact shapeCast_self _ _

/-- The block specification at row `r` and output channel `k`: `v[r, fst k] * v[r, snd k]`. -/
theorem specB_ix2 (v : (⟨2, ![1024, 64]⟩ : Shape).Idx → EReal) (r : Fin 1024) (k : Fin 2016) :
    SpecB v (ix2 r k) = v (ix2 r (fstF k)) * v (ix2 r (sndF k)) := rfl

end Cert.KernelIdeal.Chunks

end
-- ==== Proof.ChunksA.lean ====
/- The case tables of chunks 0, 1, 2, 3 of the triangular pairwise product: per piece of the kernel's plan, the decision that
   the reference's index tables hold that piece's pairs, and per chunk the theorem that reads the chunk's concatenation of
   strips at a position through Cert.Strip.piece_apply (the hand-written argument). -/
import proofs.«426617_j8375186227508_3_alg».proof.Proof.ChunkBase

set_option maxRecDepth 16384

noncomputable section

namespace Cert.KernelIdeal.Chunks

open Idealize.ShloMosaic Idealize.ShloMosaic.ValueIdx
open Cert.KernelIdeal Cert.KernelIdeal.Gen Cert.Pairs Cert.Strip

theorem tab0_0 : ∀ q : Fin 128, 0 ≤ q.val → q.val < 0 + 63 →
    fst (128 * 0 + q.val) = 0 ∧ snd (128 * 0 + q.val) = 1 + (q.val - 0) := by
  decide +kernel

theorem tab0_1 : ∀ q : Fin 128, 63 ≤ q.val → q.val < 63 + 62 →
    fst (128 * 0 + q.val) = 1 ∧ snd (128 * 0 + q.val) = 2 + (q.val - 63) := by
  decide +kernel

theorem tab0_2 : ∀ q : Fin 128, 125 ≤ q.val → q.val < 125 + 3 →
    fst (128 * 0 + q.val) = 2 ∧ snd (128 * 0 + q.val) = 3 + (q.val - 125) := by
  decide +kernel

/-- Chunk 0 (output channels 0 to 127): its 3 strips are the reference's pairs at those channels. -/
theorem chunk0 (v0 : Vec Ideal S1024x64 .f32) (r : Fin 1024) (q : Fin 128) :
    k0_pay3 (F := Ideal) v0 (ix2 r q) = SpecB v0 (ix2 r (⟨128 * 0 + q.val, by omega⟩ : Fin 2016)) := by
  rw [specB_ix2]
  unfold k0_pay3
  rw [pay2_eq]
  rcases Nat.lt_or_ge q.val 63 with h1 | h1
  · exact piece_apply _ _ r q 0 (by simp) 63 0 1 v0 _ _ _ rfl 0 rfl (Nat.zero_le _) h1 _ _
      (tab0_0 q (Nat.zero_le _) h1).1 (tab0_0 q (Nat.zero_le _) h1).2
  rcases Nat.lt_or_ge q.val 125 with h2 | h2
  · exact piece_apply _ _ r q 1 (by simp) 62 1 2 v0 _ _ _ rfl 63 rfl h1 h2 _ _
      (tab0_1 q h1 h2).1 (tab0_1 q h1 h2).2
  · exact piece_apply _ _ r q 2 (by simp) 3 2 3 v0 _ _ _ rfl 125 rfl h2 (by omega) _ _
      (tab0_2 q h2 (by omega)).1 (tab0_2 q h2 (by omega)).2

theorem tab1_0 : ∀ q : Fin 128, 0 ≤ q.val → q.val < 0 + 58 →
    fst (128 * 1 + q.val) = 2 ∧ snd (128 * 1 + q.val) = 6 + (q.val - 0) := by
  decide +kernel

theorem tab1_1 : ∀ q : Fin 128, 58 ≤ q.val → q.val < 58 + 60 →
    fst (128 * 1 + q.val) = 3 ∧ snd (128 * 1 + q.val) = 4 + (q.val - 58) := by
  decide +kernel

theorem tab1_2 : ∀ q : Fin 128, 118 ≤ q.val → q.val < 118 + 10 →
    fst (128 * 1 + q.val) = 4 ∧ snd (128 * 1 + q.val) = 5 + (q.val - 118) := by
  decide +kernel

/-- Chunk 1 (output channels 128 to 255): its 3 strips are the reference's pairs at those channels. -/
theorem chunk1 (v0 : Vec Ideal S1024x64 .f32) (r : Fin 1024) (q : Fin 128) :
    k0_pay4 (F := Ideal) v0 (ix2 r q) = SpecB v0 (ix2 r (⟨128 * 1 + q.val, by omega⟩ : Fin 2016)) := by
  rw [specB_ix2]
  unfold k0_pay4
  rw [pay2_eq]
  rcases Nat.lt_or_ge q.val 58 with h1 | h1
  · exact piece_apply _ _ r q 0 (by simp) 58 2 6 v0 _ _ _ rfl 0 rfl (Nat.zero_le _) h1 _ _
      (tab1_0 q (Nat.zero_le _) h1).1 (tab1_0 q (Nat.zero_le _) h1).2
  rcases Nat.lt_or_ge q.val 118 with h2 | h2
  · exact piece_apply _ _ r q 1 (by simp) 60 3 4 v0 _ _ _ rfl 58 rfl h1 h2 _ _
      (tab1_1 q h1 h2).1 (tab1_1 q h1 h2).2
  · exact piece_apply _ _ r q 2 (by simp) 10 4 5 v0 _ _ _ rfl 118 rfl h2 (by omega) _ _
      (tab1_2 q h2 (by omega)).1 (tab1_2 q h2 (by omega)).2

theorem tab2_0 : ∀ q : Fin 128, 0 ≤ q.val → q.val < 0 + 49 →
    fst (128 * 2 + q.val) = 4 ∧ snd (128 * 2 + q.val) = 15 + (q.val - 0) := by
  decide +kernel

theorem tab2_1 : ∀ q : Fin 128, 49 ≤ q.val → q.val < 49 + 58 →
    fst (128 * 2 + q.val) = 5 ∧ snd (128 * 2 + q.val) = 6 + (q.val - 49) := by
  decide +kernel

theorem tab2_2 : ∀ q : Fin 128, 107 ≤ q.val → q.val < 107 + 21 →
    fst (128 * 2 + q.val) = 6 ∧ snd (128 * 2 + q.val) = 7 + (q.val - 107) := by
  decide +kernel

/-- Chunk 2 (output channels 256 to 383): its 3 strips are the reference's pairs at those channels. -/
theorem chunk2 (v0 : Vec Ideal S1024x64 .f32) (r : Fin 1024) (q : Fin 128) :
    k0_pay5 (F := Ideal) v0 (ix2 r q) = SpecB v0 (ix2 r (⟨128 * 2 + q.val, by omega⟩ : Fin 2016)) := by
  rw [specB_ix2]
  unfold k0_pay5
  rw [pay2_eq]
  rcases Nat.lt_or_ge q.val 49 with h1 | h1
  · exact piece_apply _ _ r q 0 (by simp) 49 4 15 v0 _ _ _ rfl 0 rfl (Nat.zero_le _) h1 _ _
      (tab2_0 q (Nat.zero_le _) h1).1 (tab2_0 q (Nat.zero_le _) h1).2
  rcases Nat.lt_or_ge q.val 107 with h2 | h2
  · exact piece_apply _ _ r q 1 (by simp) 58 5 6 v0 _ _ _ rfl 49 rfl h1 h2 _ _
      (tab2_1 q h1 h2).1 (tab2_1 q h1 h2).2
  · exact piece_apply _ _ r q 2 (by simp) 21 6 7 v0 _ _ _ rfl 107 rfl h2 (by omega) _ _
      (tab2_2 q h2 (by omega)).1 (tab2_2 q h2 (by omega)).2

theorem tab3_0 : ∀ q : Fin 128, 0 ≤ q.val → q.val < 0 + 36 →
    fst (128 * 3 + q.val) = 6 ∧ snd (128 * 3 + q.val) = 28 + (q.val - 0) := by
  decide +kernel

theorem tab3_1 : ∀ q : Fin 128, 36 ≤ q.val → q.val < 36 + 56 →
    fst (128 * 3 + q.val) = 7 ∧ snd (128 * 3 + q.val) = 8 + (q.val - 36) := by
  decide +kernel

theorem tab3_2 : ∀ q : Fin 128, 92 ≤ q.val → q.val < 92 + 36 →
    fst (128 * 3 + q.val) = 8 ∧ snd (128 * 3 + q.val) = 9 + (q.val - 92) := by
  decide +kernel

/-- Chunk 3 (output channels 384 to 511): its 3 strips are the reference's pairs at those channels. -/
theorem chunk3 (v0 : Vec Ideal S1024x64 .f32) (r : Fin 1024) (q : Fin 128) :
    k0_pay7 (F := Ideal) (k0_pay2 v0) (k0_pay6 v0) (ix2 r q) = SpecB v0 (ix2 r (⟨128 * 3 + q.val, by omega⟩ : Fin 2016)) := by
  rw [specB_ix2]
  unfold k0_pay7 k0_pay6
  rw [pay2_eq]
  rcases Nat.lt_or_ge q.val 36 with h1 | h1
  · exact piece_apply _ _ r q 0 (by simp) 36 6 28 v0 _ _ _ rfl 0 rfl (Nat.zero_le _) h1 _ _
      (tab3_0 q (Nat.zero_le _) h1).1 (tab3_0 q (Nat.zero_le _) h1).2
  rcases Nat.lt_or_ge q.val 92 with h2 | h2
  · exact piece_apply _ _ r q 1 (by simp) 56 7 8 v0 _ _ _ rfl 36 rfl h1 h2 _ _
      (tab3_1 q h1 h2).1 (tab3_1 q h1 h2).2
  · exact piece_apply _ _ r q 2 (by simp) 36 8 9 v0 _ _ _ rfl 92 rfl h2 (by omega) _ _
      (tab3_2 q h2 (by omega)).1 (tab3_2 q h2 (by omega)).2

end Cert.KernelIdeal.Chunks

end
-- ==== Proof.ChunksB.lean ====
/- The case tables of chunks 4, 5, 6, 7, 8 of the triangular pairwise product: per piece of the kernel's plan, the decision that
   the reference's index tables hold that piece's pairs, and per chunk the theorem that reads the chunk's concatenation of
   strips at a position through Cert.Strip.piece_apply (the hand-written argument). -/
import proofs.«426617_j8375186227508_3_alg».proof.Proof.ChunkBase

set_option maxRecDepth 16384

noncomputable section

namespace Cert.KernelIdeal.Chunks

open Idealize.ShloMosaic Idealize.ShloMosaic.ValueIdx
open Cert.KernelIdeal Cert.KernelIdeal.Gen Cert.Pairs Cert.Strip

theorem tab4_0 : ∀ q : Fin 128, 0 ≤ q.val → q.val < 0 + 19 →
    fst (128 * 4 + q.val) = 8 ∧ snd (128 * 4 + q.val) = 45 + (q.val - 0) := by
  decide +kernel

theorem tab4_1 : ∀ q : Fin 128, 19 ≤ q.val → q.val < 19 + 54 →
    fst (128 * 4 + q.val) = 9 ∧ snd (128 * 4 + q.val) = 10 + (q.val - 19) := by
  decide +kernel

theorem tab4_2 : ∀ q : Fin 128, 73 ≤ q.val → q.val < 73 + 53 →
    fst (128 * 4 + q.val) = 10 ∧ snd (128 * 4 + q.val) = 11 + (q.val - 73) := by
  decide +kernel

theorem tab4_3 : ∀ q : Fin 128, 126 ≤ q.val → q.val < 126 + 2 →
    fst (128 * 4 + q.val) = 11 ∧ snd (128 * 4 + q.val) = 12 + (q.val - 126) := by
  decide +kernel

/-- Chunk 4 (output channels 512 to 639): its 4 strips are the reference's pairs at those channels. -/
theorem chunk4 (v0 : Vec Ideal S1024x64 .f32) (r : Fin 1024) (q : Fin 128) :
    k0_pay8 (F := Ideal) (k0_pay2 v0) (ix2 r q) = SpecB v0 (ix2 r (⟨128 * 4 + q.val, by omega⟩ : Fin 2016)) := by
  rw [specB_ix2]
  unfold k0_pay8
  rw [pay2_eq]
  rcases Nat.lt_or_ge q.val 19 with h1 | h1
  · exact piece_apply _ _ r q 0 (by simp) 19 8 45 v0 _ _ _ rfl 0 rfl (Nat.zero_le _) h1 _ _
      (tab4_0 q (Nat.zero_le _) h1).1 (tab4_0 q (Nat.zero_le _) h1).2
  rcases Nat.lt_or_ge q.val 73 with h2 | h2
  · exact piece_apply _ _ r q 1 (by simp) 54 9 10 v0 _ _ _ rfl 19 rfl h1 h2 _ _
      (tab4_1 q h1 h2).1 (tab4_1 q h1 h2).2
  rcases Nat.lt_or_ge q.val 126 with h3 | h3
  · exact piece_apply _ _ r q 2 (by simp) 53 10 11 v0 _ _ _ rfl 73 rfl h2 h3 _ _
      (tab4_2 q h2 h3).1 (tab4_2 q h2 h3).2
  · exact piece_apply _ _ r q 3 (by simp) 2 11 12 v0 _ _ _ rfl 126 rfl h3 (by omega) _ _
      (tab4_3 q h3 (by omega)).1 (tab4_3 q h3 (by omega)).2

theorem tab5_0 : ∀ q : Fin 128, 0 ≤ q.val → q.val < 0 + 50 →
    fst (128 * 5 + q.val) = 11 ∧ snd (128 * 5 + q.val) = 14 + (q.val - 0) := by
  decide +kernel

theorem tab5_1 : ∀ q : Fin 128, 50 ≤ q.val → q.val < 50 + 51 →
    fst (128 * 5 + q.val) = 12 ∧ snd (128 * 5 + q.val) = 13 + (q.val - 50) := by
  decide +kernel

theorem tab5_2 : ∀ q : Fin 128, 101 ≤ q.val → q.val < 101 + 27 →
    fst (128 * 5 + q.val) = 13 ∧ snd (128 * 5 + q.val) = 14 + (q.val - 101) := by
  decide +kernel

/-- Chunk 5 (output channels 640 to 767): its 3 strips are the reference's pairs at those channels. -/
theorem chunk5 (v0 : Vec Ideal S1024x64 .f32) (r : Fin 1024) (q : Fin 128) :
    k0_pay9 (F := Ideal) (k0_pay2 v0) (ix2 r q) = SpecB v0 (ix2 r (⟨128 * 5 + q.val, by omega⟩ : Fin 2016)) := by
  rw [specB_ix2]
  unfold k0_pay9
  rw [pay2_eq]
  rcases Nat.lt_or_ge q.val 50 with h1 | h1
  · exact piece_apply _ _ r q 0 (by simp) 50 11 14 v0 _ _ _ rfl 0 rfl (Nat.zero_le _) h1 _ _
      (tab5_0 q (Nat.zero_le _) h1).1 (tab5_0 q (Nat.zero_le _) h1).2
  rcases Nat.lt_or_ge q.val 101 with h2 | h2
  · exact piece_apply _ _ r q 1 (by simp) 51 12 13 v0 _ _ _ rfl 50 rfl h1 h2 _ _
      (tab5_1 q h1 h2).1 (tab5_1 q h1 h2).2
  · exact piece_apply _ _ r q 2 (by simp) 27 13 14 v0 _ _ _ rfl 101 rfl h2 (by omega) _ _
      (tab5_2 q h2 (by omega)).1 (tab5_2 q h2 (by omega)).2

theorem tab6_0 : ∀ q : Fin 128, 0 ≤ q.val → q.val < 0 + 23 →
    fst (128 * 6 + q.val) = 13 ∧ snd (128 * 6 + q.val) = 41 + (q.val - 0) := by
  decide +kernel

theorem tab6_1 : ∀ q : Fin 128, 23 ≤ q.val → q.val < 23 + 49 →
    fst (128 * 6 + q.val) = 14 ∧ snd (128 * 6 + q.val) = 15 + (q.val - 23) := by
  decide +kernel

theorem tab6_2 : ∀ q : Fin 128, 72 ≤ q.val → q.val < 72 + 48 →
    fst (128 * 6 + q.val) = 15 ∧ snd (128 * 6 + q.val) = 16 + (q.val - 72) := by
  decide +kernel

theorem tab6_3 : ∀ q : Fin 128, 120 ≤ q.val → q.val < 120 + 8 →
    fst (128 * 6 + q.val) = 16 ∧ snd (128 * 6 + q.val) = 17 + (q.val - 120) := by
  decide +kernel

/-- Chunk 6 (output channels 768 to 895): its 4 strips are the reference's pairs at those channels. -/
theorem chunk6 (v0 : Vec Ideal S1024x64 .f32) (r : Fin 1024) (q : Fin 128) :
    k0_pay13 (F := Ideal) (k0_pay2 v0) (k0_pay10 (k0_pay2 v0)) (k0_pay11 (k0_pay2 v0)) (k0_pay12 (k0_pay2 v0)) (ix2 r q) = SpecB v0 (ix2 r (⟨128 * 6 + q.val, by omega⟩ : Fin 2016)) := by
  rw [specB_ix2]
  unfold k0_pay13 k0_pay10 k0_pay11 k0_pay12
  rw [pay2_eq]
  rcases Nat.lt_or_ge q.val 23 with h1 | h1
  · exact piece_apply _ _ r q 0 (by simp) 23 13 41 v0 _ _ _ rfl 0 rfl (Nat.zero_le _) h1 _ _
      (tab6_0 q (Nat.zero_le _) h1).1 (tab6_0 q (Nat.zero_le _) h1).2
  rcases Nat.lt_or_ge q.val 72 with h2 | h2
  · exact piece_apply _ _ r q 1 (by simp) 49 14 15 v0 _ _ _ rfl 23 rfl h1 h2 _ _
      (tab6_1 q h1 h2).1 (tab6_1 q h1 h2).2
  rcases Nat.lt_or_ge q.val 120 with h3 | h3
  · exact piece_apply _ _ r q 2 (by simp) 48 15 16 v0 _ _ _ rfl 72 rfl h2 h3 _ _
      (tab6_2 q h2 h3).1 (tab6_2 q h2 h3).2
  · exact piece_apply _ _ r q 3 (by simp) 8 16 17 v0 _ _ _ rfl 120 rfl h3 (by omega) _ _
      (tab6_3 q h3 (by omega)).1 (tab6_3 q h3 (by omega)).2

theorem tab7_0 : ∀ q : Fin 128, 0 ≤ q.val → q.val < 0 + 39 →
    fst (128 * 7 + q.val) = 16 ∧ snd (128 * 7 + q.val) = 25 + (q.val - 0) := by
  decide +kernel

theorem tab7_1 : ∀ q : Fin 128, 39 ≤ q.val → q.val < 39 + 46 →
    fst (128 * 7 + q.val) = 17 ∧ snd (128 * 7 + q.val) = 18 + (q.val - 39) := by
  decide +kernel

theorem tab7_2 : ∀ q : Fin 128, 85 ≤ q.val → q.val < 85 + 43 →
    fst (128 * 7 + q.val) = 18 ∧ snd (128 * 7 + q.val) = 19 + (q.val - 85) := by
  decide +kernel

/-- Chunk 7 (output channels 896 to 1023): its 3 strips are the reference's pairs at those channels. -/
theorem chunk7 (v0 : Vec Ideal S1024x64 .f32) (r : Fin 1024) (q : Fin 128) :
    k0_pay14 (F := Ideal) (k0_pay2 v0) (ix2 r q) = SpecB v0 (ix2 r (⟨128 * 7 + q.val, by omega⟩ : Fin 2016)) := by
  rw [specB_ix2]
  unfold k0_pay14
  rw [pay2_eq]
  rcases Nat.lt_or_ge q.val 39 with h1 | h1
  · exact piece_apply _ _ r q 0 (by simp) 39 16 25 v0 _ _ _ rfl 0 rfl (Nat.zero_le _) h1 _ _
      (tab7_0 q (Nat.zero_le _) h1).1 (tab7_0 q (Nat.zero_le _) h1).2
  rcases Nat.lt_or_ge q.val 85 with h2 | h2
  · exact piece_apply _ _ r q 1 (by simp) 46 17 18 v0 _ _ _ rfl 39 rfl h1 h2 _ _
      (tab7_1 q h1 h2).1 (tab7_1 q h1 h2).2
  · exact piece_apply _ _ r q 2 (by simp) 43 18 19 v0 _ _ _ rfl 85 rfl h2 (by omega) _ _
      (tab7_2 q h2 (by omega)).1 (tab7_2 q h2 (by omega)).2

theorem tab8_0 : ∀ q : Fin 128, 0 ≤ q.val → q.val < 0 + 2 →
    fst (128 * 8 + q.val) = 18 ∧ snd (128 * 8 + q.val) = 62 + (q.val - 0) := by
  decide +kernel

theorem tab8_1 : ∀ q : Fin 128, 2 ≤ q.val → q.val < 2 + 44 →
    fst (128 * 8 + q.val) = 19 ∧ snd (128 * 8 + q.val) = 20 + (q.val - 2) := by
  decide +kernel

theorem tab8_2 : ∀ q : Fin 128, 46 ≤ q.val → q.val < 46 + 43 →
    fst (128 * 8 + q.val) = 20 ∧ snd (128 * 8 + q.val) = 21 + (q.val - 46) := by
  decide +kernel

theorem tab8_3 : ∀ q : Fin 128, 89 ≤ q.val → q.val < 89 + 39 →
    fst (128 * 8 + q.val) = 21 ∧ snd (128 * 8 + q.val) = 22 + (q.val - 89) := by
  decide +kernel

/-- Chunk 8 (output channels 1024 to 1151): its 4 strips are the reference's pairs at those channels. -/
theorem chunk8 (v0 : Vec Ideal S1024x64 .f32) (r : Fin 1024) (q : Fin 128) :
    k0_pay15 (F := Ideal) (k0_pay2 v0) (ix2 r q) = SpecB v0 (ix2 r (⟨128 * 8 + q.val, by omega⟩ : Fin 2016)) := by
  rw [specB_ix2]
  unfold k0_pay15
  rw [pay2_eq]
  rcases Nat.lt_or_ge q.val 2 with h1 | h1
  · exact piece_apply _ _ r q 0 (by simp) 2 18 62 v0 _ _ _ rfl 0 rfl (Nat.zero_le _) h1 _ _
      (tab8_0 q (Nat.zero_le _) h1).1 (tab8_0 q (Nat.zero_le _) h1).2
  rcases Nat.lt_or_ge q.val 46 with h2 | h2
  · exact piece_apply _ _ r q 1 (by simp) 44 19 20 v0 _ _ _ rfl 2 rfl h1 h2 _ _
      (tab8_1 q h1 h2).1 (tab8_1 q h1 h2).2
  rcases Nat.lt_or_ge q.val 89 with h3 | h3
  · exact piece_apply _ _ r q 2 (by simp) 43 20 21 v0 _ _ _ rfl 46 rfl h2 h3 _ _
      (tab8_2 q h2 h3).1 (tab8_2 q h2 h3).2
  · exact piece_apply _ _ r q 3 (by simp) 39 21 22 v0 _ _ _ rfl 89 rfl h3 (by omega) _ _
      (tab8_3 q h3 (by omega)).1 (tab8_3 q h3 (by omega)).2

end Cert.KernelIdeal.Chunks

end
-- ==== Proof.ChunksC.lean ====
/- The case tables of chunks 9, 10, 11, 12 of the triangular pairwise product: per piece of the kernel's plan, the decision that
   the reference's index tables hold that piece's pairs, and per chunk the theorem that reads the chunk's concatenation of
   strips at a position through Cert.Strip.piece_apply (the hand-written argument). -/
import proofs.«426617_j8375186227508_3_alg».proof.Proof.ChunkBase

set_option maxRecDepth 16384

noncomputable section

namespace Cert.KernelIdeal.Chunks

open Idealize.ShloMosaic Idealize.ShloMosaic.ValueIdx
open Cert.KernelIdeal Cert.KernelIdeal.Gen Cert.Pairs Cert.Strip

theorem tab9_0 : ∀ q : Fin 128, 0 ≤ q.val → q.val < 0 + 3 →
    fst (128 * 9 + q.val) = 21 ∧ snd (128 * 9 + q.val) = 61 + (q.val - 0) := by
  decide +kernel

theorem tab9_1 : ∀ q : Fin 128, 3 ≤ q.val → q.val < 3 + 41 →
    fst (128 * 9 + q.val) = 22 ∧ snd (128 * 9 + q.val) = 23 + (q.val - 3) := by
  decide +kernel

theorem tab9_2 : ∀ q : Fin 128, 44 ≤ q.val → q.val < 44 + 40 →
    fst (128 * 9 + q.val) = 23 ∧ snd (128 * 9 + q.val) = 24 + (q.val - 44) := by
  decide +kernel

theorem tab9_3 : ∀ q : Fin 128, 84 ≤ q.val → q.val < 84 + 39 →
    fst (128 * 9 + q.val) = 24 ∧ snd (128 * 9 + q.val) = 25 + (q.val - 84) := by
  decide +kernel

theorem tab9_4 : ∀ q : Fin 128, 123 ≤ q.val → q.val < 123 + 5 →
    fst (128 * 9 + q.val) = 25 ∧ snd (128 * 9 + q.val) = 26 + (q.val - 123) := by
  decide +kernel

/-- Chunk 9 (output channels 1152 to 1279): its 5 strips are the reference's pairs at those channels. -/
theorem chunk9 (v0 : Vec Ideal S1024x64 .f32) (r : Fin 1024) (q : Fin 128) :
    k0_pay19 (F := Ideal) (k0_pay2 v0) (k0_pay16 (k0_pay2 v0)) (k0_pay17 (k0_pay2 v0)) (k0_pay18 (k0_pay2 v0)) (ix2 r q) = SpecB v0 (ix2 r (⟨128 * 9 + q.val, by omega⟩ : Fin 2016)) := by
  rw [specB_ix2]
  unfold k0_pay19 k0_pay16 k0_pay17 k0_pay18
  rw [pay2_eq]
  rcases Nat.lt_or_ge q.val 3 with h1 | h1
  · exact piece_apply _ _ r q 0 (by simp) 3 21 61 v0 _ _ _ rfl 0 rfl (Nat.zero_le _) h1 _ _
      (tab9_0 q (Nat.zero_le _) h1).1 (tab9_0 q (Nat.zero_le _) h1).2
  rcases Nat.lt_or_ge q.val 44 with h2 | h2
  · exact piece_apply _ _ r q 1 (by simp) 41 22 23 v0 _ _ _ rfl 3 rfl h1 h2 _ _
      (tab9_1 q h1 h2).1 (tab9_1 q h1 h2).2
  rcases Nat.lt_or_ge q.val 84 with h3 | h3
  · exact piece_apply _ _ r q 2 (by simp) 40 23 24 v0 _ _ _ rfl 44 rfl h2 h3 _ _
      (tab9_2 q h2 h3).1 (tab9_2 q h2 h3).2
  rcases Nat.lt_or_ge q.val 123 with h4 | h4
  · exact piece_apply _ _ r q 3 (by simp) 39 24 25 v0 _ _ _ rfl 84 rfl h3 h4 _ _
      (tab9_3 q h3 h4).1 (tab9_3 q h3 h4).2
  · exact piece_apply _ _ r q 4 (by simp) 5 25 26 v0 _ _ _ rfl 123 rfl h4 (by omega) _ _
      (tab9_4 q h4 (by omega)).1 (tab9_4 q h4 (by omega)).2

theorem tab10_0 : ∀ q : Fin 128, 0 ≤ q.val → q.val < 0 + 33 →
    fst (128 * 10 + q.val) = 25 ∧ snd (128 * 10 + q.val) = 31 + (q.val - 0) := by
  decide +kernel

theorem tab10_1 : ∀ q : Fin 128, 33 ≤ q.val → q.val < 33 + 37 →
    fst (128 * 10 + q.val) = 26 ∧ snd (128 * 10 + q.val) = 27 + (q.val - 33) := by
  decide +kernel

theorem tab10_2 : ∀ q : Fin 128, 70 ≤ q.val → q.val < 70 + 36 →
    fst (128 * 10 + q.val) = 27 ∧ snd (128 * 10 + q.val) = 28 + (q.val - 70) := by
  decide +kernel

theorem tab10_3 : ∀ q : Fin 128, 106 ≤ q.val → q.val < 106 + 22 →
    fst (128 * 10 + q.val) = 28 ∧ snd (128 * 10 + q.val) = 29 + (q.val - 106) := by
  decide +kernel

/-- Chunk 10 (output channels 1280 to 1407): its 4 strips are the reference's pairs at those channels. -/
theorem chunk10 (v0 : Vec Ideal S1024x64 .f32) (r : Fin 1024) (q : Fin 128) :
    k0_pay20 (F := Ideal) (k0_pay2 v0) (ix2 r q) = SpecB v0 (ix2 r (⟨128 * 10 + q.val, by omega⟩ : Fin 2016)) := by
  rw [specB_ix2]
  unfold k0_pay20
  rw [pay2_eq]
  rcases Nat.lt_or_ge q.val 33 with h1 | h1
  · exact piece_apply _ _ r q 0 (by simp) 33 25 31 v0 _ _ _ rfl 0 rfl (Nat.zero_le _) h1 _ _
      (tab10_0 q (Nat.zero_le _) h1).1 (tab10_0 q (Nat.zero_le _) h1).2
  rcases Nat.lt_or_ge q.val 70 with h2 | h2
  · exact piece_apply _ _ r q 1 (by simp) 37 26 27 v0 _ _ _ rfl 33 rfl h1 h2 _ _
      (tab10_1 q h1 h2).1 (tab10_1 q h1 h2).2
  rcases Nat.lt_or_ge q.val 106 with h3 | h3
  · exact piece_apply _ _ r q 2 (by simp) 36 27 28 v0 _ _ _ rfl 70 rfl h2 h3 _ _
      (tab10_2 q h2 h3).1 (tab10_2 q h2 h3).2
  · exact piece_apply _ _ r q 3 (by simp) 22 28 29 v0 _ _ _ rfl 106 rfl h3 (by omega) _ _
      (tab10_3 q h3 (by omega)).1 (tab10_3 q h3 (by omega)).2

theorem tab11_0 : ∀ q : Fin 128, 0 ≤ q.val → q.val < 0 + 13 →
    fst (128 * 11 + q.val) = 28 ∧ snd (128 * 11 + q.val) = 51 + (q.val - 0) := by
  decide +kernel

theorem tab11_1 : ∀ q : Fin 128, 13 ≤ q.val → q.val < 13 + 34 →
    fst (128 * 11 + q.val) = 29 ∧ snd (128 * 11 + q.val) = 30 + (q.val - 13) := by
  decide +kernel

theorem tab11_2 : ∀ q : Fin 128, 47 ≤ q.val → q.val < 47 + 33 →
    fst (128 * 11 + q.val) = 30 ∧ snd (128 * 11 + q.val) = 31 + (q.val - 47) := by
  decide +kernel

theorem tab11_3 : ∀ q : Fin 128, 80 ≤ q.val → q.val < 80 + 32 →
    fst (128 * 11 + q.val) = 31 ∧ snd (128 * 11 + q.val) = 32 + (q.val - 80) := by
  decide +kernel

theorem tab11_4 : ∀ q : Fin 128, 112 ≤ q.val → q.val < 112 + 16 →
    fst (128 * 11 + q.val) = 32 ∧ snd (128 * 11 + q.val) = 33 + (q.val - 112) := by
  decide +kernel

/-- Chunk 11 (output channels 1408 to 1535): its 5 strips are the reference's pairs at those channels. -/
theorem chunk11 (v0 : Vec Ideal S1024x64 .f32) (r : Fin 1024) (q : Fin 128) :
    k0_pay21 (F := Ideal) (k0_pay2 v0) (ix2 r q) = SpecB v0 (ix2 r (⟨128 * 11 + q.val, by omega⟩ : Fin 2016)) := by
  rw [specB_ix2]
  unfold k0_pay21
  rw [pay2_eq]
  rcases Nat.lt_or_ge q.val 13 with h1 | h1
  · exact piece_apply _ _ r q 0 (by simp) 13 28 51 v0 _ _ _ rfl 0 rfl (Nat.zero_le _) h1 _ _
      (tab11_0 q (Nat.zero_le _) h1).1 (tab11_0 q (Nat.zero_le _) h1).2
  rcases Nat.lt_or_ge q.val 47 with h2 | h2
  · exact piece_apply _ _ r q 1 (by simp) 34 29 30 v0 _ _ _ rfl 13 rfl h1 h2 _ _
      (tab11_1 q h1 h2).1 (tab11_1 q h1 h2).2
  rcases Nat.lt_or_ge q.val 80 with h3 | h3
  · exact piece_apply _ _ r q 2 (by simp) 33 30 31 v0 _ _ _ rfl 47 rfl h2 h3 _ _
      (tab11_2 q h2 h3).1 (tab11_2 q h2 h3).2
  rcases Nat.lt_or_ge q.val 112 with h4 | h4
  · exact piece_apply _ _ r q 3 (by simp) 32 31 32 v0 _ _ _ rfl 80 rfl h3 h4 _ _
      (tab11_3 q h3 h4).1 (tab11_3 q h3 h4).2
  · exact piece_apply _ _ r q 4 (by simp) 16 32 33 v0 _ _ _ rfl 112 rfl h4 (by omega) _ _
      (tab11_4 q h4 (by omega)).1 (tab11_4 q h4 (by omega)).2

theorem tab12_0 : ∀ q : Fin 128, 0 ≤ q.val → q.val < 0 + 15 →
    fst (128 * 12 + q.val) = 32 ∧ snd (128 * 12 + q.val) = 49 + (q.val - 0) := by
  decide +kernel

theorem tab12_1 : ∀ q : Fin 128, 15 ≤ q.val → q.val < 15 + 30 →
    fst (128 * 12 + q.val) = 33 ∧ snd (128 * 12 + q.val) = 34 + (q.val - 15) := by
  decide +kernel

theorem tab12_2 : ∀ q : Fin 128, 45 ≤ q.val → q.val < 45 + 29 →
    fst (128 * 12 + q.val) = 34 ∧ snd (128 * 12 + q.val) = 35 + (q.val - 45) := by
  decide +kernel

theorem tab12_3 : ∀ q : Fin 128, 74 ≤ q.val → q.val < 74 + 28 →
    fst (128 * 12 + q.val) = 35 ∧ snd (128 * 12 + q.val) = 36 + (q.val - 74) := by
  decide +kernel

theorem tab12_4 : ∀ q : Fin 128, 102 ≤ q.val → q.val < 102 + 26 →
    fst (128 * 12 + q.val) = 36 ∧ snd (128 * 12 + q.val) = 37 + (q.val - 102) := by
  decide +kernel

/-- Chunk 12 (output channels 1536 to 1663): its 5 strips are the reference's pairs at those channels. -/
theorem chunk12 (v0 : Vec Ideal S1024x64 .f32) (r : Fin 1024) (q : Fin 128) :
    k0_pay22 (F := Ideal) (k0_pay2 v0) (ix2 r q) = SpecB v0 (ix2 r (⟨128 * 12 + q.val, by omega⟩ : Fin 2016)) := by
  rw [specB_ix2]
  unfold k0_pay22
  rw [pay2_eq]
  rcases Nat.lt_or_ge q.val 15 with h1 | h1
  · exact piece_apply _ _ r q 0 (by simp) 15 32 49 v0 _ _ _ rfl 0 rfl (Nat.zero_le _) h1 _ _
      (tab12_0 q (Nat.zero_le _) h1).1 (tab12_0 q (Nat.zero_le _) h1).2
  rcases Nat.lt_or_ge q.val 45 with h2 | h2
  · exact piece_apply _ _ r q 1 (by simp) 30 33 34 v0 _ _ _ rfl 15 rfl h1 h2 _ _
      (tab12_1 q h1 h2).1 (tab12_1 q h1 h2).2
  rcases Nat.lt_or_ge q.val 74 with h3 | h3
  · exact piece_apply _ _ r q 2 (by simp) 29 34 35 v0 _ _ _ rfl 45 rfl h2 h3 _ _
      (tab12_2 q h2 h3).1 (tab12_2 q h2 h3).2
  rcases Nat.lt_or_ge q.val 102 with h4 | h4
  · exact piece_apply _ _ r q 3 (by simp) 28 35 36 v0 _ _ _ rfl 74 rfl h3 h4 _ _
      (tab12_3 q h3 h4).1 (tab12_3 q h3 h4).2
  · exact piece_apply _ _ r q 4 (by simp) 26 36 37 v0 _ _ _ rfl 102 rfl h4 (by omega) _ _
      (tab12_4 q h4 (by omega)).1 (tab12_4 q h4 (by omega)).2

end Cert.KernelIdeal.Chunks

end
-- ==== Proof.ChunksD.lean ====
/- The case tables of chunks 13, 14, 15 of the triangular pairwise product: per piece of the kernel's plan, the decision that
   the reference's index tables hold that piece's pairs, and per chunk the theorem that reads the chunk's concatenation of
   strips at a position through Cert.Strip.piece_apply (the hand-written argument). -/
import proofs.«426617_j8375186227508_3_alg».proof.Proof.ChunkBase

set_option maxRecDepth 16384

noncomputable section

namespace Cert.KernelIdeal.Chunks

open Idealize.ShloMosaic Idealize.ShloMosaic.ValueIdx
open Cert.KernelIdeal Cert.KernelIdeal.Gen Cert.Pairs Cert.Strip

theorem tab13_0 : ∀ q : Fin 128, 0 ≤ q.val → q.val < 0 + 1 →
    fst (128 * 13 + q.val) = 36 ∧ snd (128 * 13 + q.val) = 63 + (q.val - 0) := by
  decide +kernel

theorem tab13_1 : ∀ q : Fin 128, 1 ≤ q.val → q.val < 1 + 26 →
    fst (128 * 13 + q.val) = 37 ∧ snd (128 * 13 + q.val) = 38 + (q.val - 1) := by
  decide +kernel

theorem tab13_2 : ∀ q : Fin 128, 27 ≤ q.val → q.val < 27 + 25 →
    fst (128 * 13 + q.val) = 38 ∧ snd (128 * 13 + q.val) = 39 + (q.val - 27) := by
  decide +kernel

theorem tab13_3 : ∀ q : Fin 128, 52 ≤ q.val → q.val < 52 + 24 →
    fst (128 * 13 + q.val) = 39 ∧ snd (128 * 13 + q.val) = 40 + (q.val - 52) := by
  decide +kernel

theorem tab13_4 : ∀ q : Fin 128, 76 ≤ q.val → q.val < 76 + 23 →
    fst (128 * 13 + q.val) = 40 ∧ snd (128 * 13 + q.val) = 41 + (q.val - 76) := by
  decide +kernel

theorem tab13_5 : ∀ q : Fin 128, 99 ≤ q.val → q.val < 99 + 22 →
    fst (128 * 13 + q.val) = 41 ∧ snd (128 * 13 + q.val) = 42 + (q.val - 99) := by
  decide +kernel

theorem tab13_6 : ∀ q : Fin 128, 121 ≤ q.val → q.val < 121 + 7 →
    fst (128 * 13 + q.val) = 42 ∧ snd (128 * 13 + q.val) = 43 + (q.val - 121) := by
  decide +kernel

/-- Chunk 13 (output channels 1664 to 1791): its 7 strips are the reference's pairs at those channels. -/
theorem chunk13 (v0 : Vec Ideal S1024x64 .f32) (r : Fin 1024) (q : Fin 128) :
    k0_pay23 (F := Ideal) (k0_pay2 v0) (ix2 r q) = SpecB v0 (ix2 r (⟨128 * 13 + q.val, by omega⟩ : Fin 2016)) := by
  rw [specB_ix2]
  unfold k0_pay23
  rw [pay2_eq]
  rcases Nat.lt_or_ge q.val 1 with h1 | h1
  · exact piece_apply _ _ r q 0 (by simp) 1 36 63 v0 _ _ _ rfl 0 rfl (Nat.zero_le _) h1 _ _
      (tab13_0 q (Nat.zero_le _) h1).1 (tab13_0 q (Nat.zero_le _) h1).2
  rcases Nat.lt_or_ge q.val 27 with h2 | h2
  · exact piece_apply _ _ r q 1 (by simp) 26 37 38 v0 _ _ _ rfl 1 rfl h1 h2 _ _
      (tab13_1 q h1 h2).1 (tab13_1 q h1 h2).2
  rcases Nat.lt_or_ge q.val 52 with h3 | h3
  · exact piece_apply _ _ r q 2 (by simp) 25 38 39 v0 _ _ _ rfl 27 rfl h2 h3 _ _
      (tab13_2 q h2 h3).1 (tab13_2 q h2 h3).2
  rcases Nat.lt_or_ge q.val 76 with h4 | h4
  · exact piece_apply _ _ r q 3 (by simp) 24 39 40 v0 _ _ _ rfl 52 rfl h3 h4 _ _
      (tab13_3 q h3 h4).1 (tab13_3 q h3 h4).2
  rcases Nat.lt_or_ge q.val 99 with h5 | h5
  · exact piece_apply _ _ r q 4 (by simp) 23 40 41 v0 _ _ _ rfl 76 rfl h4 h5 _ _
      (tab13_4 q h4 h5).1 (tab13_4 q h4 h5).2
  rcases Nat.lt_or_ge q.val 121 with h6 | h6
  · exact piece_apply _ _ r q 5 (by simp) 22 41 42 v0 _ _ _ rfl 99 rfl h5 h6 _ _
      (tab13_5 q h5 h6).1 (tab13_5 q h5 h6).2
  · exact piece_apply _ _ r q 6 (by simp) 7 42 43 v0 _ _ _ rfl 121 rfl h6 (by omega) _ _
      (tab13_6 q h6 (by omega)).1 (tab13_6 q h6 (by omega)).2

theorem tab14_0 : ∀ q : Fin 128, 0 ≤ q.val → q.val < 0 + 14 →
    fst (128 * 14 + q.val) = 42 ∧ snd (128 * 14 + q.val) = 50 + (q.val - 0) := by
  decide +kernel

theorem tab14_1 : ∀ q : Fin 128, 14 ≤ q.val → q.val < 14 + 20 →
    fst (128 * 14 + q.val) = 43 ∧ snd (128 * 14 + q.val) = 44 + (q.val - 14) := by
  decide +kernel

theorem tab14_2 : ∀ q : Fin 128, 34 ≤ q.val → q.val < 34 + 19 →
    fst (128 * 14 + q.val) = 44 ∧ snd (128 * 14 + q.val) = 45 + (q.val - 34) := by
  decide +kernel

theorem tab14_3 : ∀ q : Fin 128, 53 ≤ q.val → q.val < 53 + 18 →
    fst (128 * 14 + q.val) = 45 ∧ snd (128 * 14 + q.val) = 46 + (q.val - 53) := by
  decide +kernel

theorem tab14_4 : ∀ q : Fin 128, 71 ≤ q.val → q.val < 71 + 17 →
    fst (128 * 14 + q.val) = 46 ∧ snd (128 * 14 + q.val) = 47 + (q.val - 71) := by
  decide +kernel

theorem tab14_5 : ∀ q : Fin 128, 88 ≤ q.val → q.val < 88 + 16 →
    fst (128 * 14 + q.val) = 47 ∧ snd (128 * 14 + q.val) = 48 + (q.val - 88) := by
  decide +kernel

theorem tab14_6 : ∀ q : Fin 128, 104 ≤ q.val → q.val < 104 + 15 →
    fst (128 * 14 + q.val) = 48 ∧ snd (128 * 14 + q.val) = 49 + (q.val - 104) := by
  decide +kernel

theorem tab14_7 : ∀ q : Fin 128, 119 ≤ q.val → q.val < 119 + 9 →
    fst (128 * 14 + q.val) = 49 ∧ snd (128 * 14 + q.val) = 50 + (q.val - 119) := by
  decide +kernel

/-- Chunk 14 (output channels 1792 to 1919): its 8 strips are the reference's pairs at those channels. -/
theorem chunk14 (v0 : Vec Ideal S1024x64 .f32) (r : Fin 1024) (q : Fin 128) :
    k0_pay25 (F := Ideal) (k0_pay2 v0) (k0_pay24 (k0_pay2 v0)) (ix2 r q) = SpecB v0 (ix2 r (⟨128 * 14 + q.val, by omega⟩ : Fin 2016)) := by
  rw [specB_ix2]
  unfold k0_pay25 k0_pay24
  rw [pay2_eq]
  rcases Nat.lt_or_ge q.val 14 with h1 | h1
  · exact piece_apply _ _ r q 0 (by simp) 14 42 50 v0 _ _ _ rfl 0 rfl (Nat.zero_le _) h1 _ _
      (tab14_0 q (Nat.zero_le _) h1).1 (tab14_0 q (Nat.zero_le _) h1).2
  rcases Nat.lt_or_ge q.val 34 with h2 | h2
  · exact piece_apply _ _ r q 1 (by simp) 20 43 44 v0 _ _ _ rfl 14 rfl h1 h2 _ _
      (tab14_1 q h1 h2).1 (tab14_1 q h1 h2).2
  rcases Nat.lt_or_ge q.val 53 with h3 | h3
  · exact piece_apply _ _ r q 2 (by simp) 19 44 45 v0 _ _ _ rfl 34 rfl h2 h3 _ _
      (tab14_2 q h2 h3).1 (tab14_2 q h2 h3).2
  rcases Nat.lt_or_ge q.val 71 with h4 | h4
  · exact piece_apply _ _ r q 3 (by simp) 18 45 46 v0 _ _ _ rfl 53 rfl h3 h4 _ _
      (tab14_3 q h3 h4).1 (tab14_3 q h3 h4).2
  rcases Nat.lt_or_ge q.val 88 with h5 | h5
  · exact piece_apply _ _ r q 4 (by simp) 17 46 47 v0 _ _ _ rfl 71 rfl h4 h5 _ _
      (tab14_4 q h4 h5).1 (tab14_4 q h4 h5).2
  rcases Nat.lt_or_ge q.val 104 with h6 | h6
  · exact piece_apply _ _ r q 5 (by simp) 16 47 48 v0 _ _ _ rfl 88 rfl h5 h6 _ _
      (tab14_5 q h5 h6).1 (tab14_5 q h5 h6).2
  rcases Nat.lt_or_ge q.val 119 with h7 | h7
  · exact piece_apply _ _ r q 6 (by simp) 15 48 49 v0 _ _ _ rfl 104 rfl h6 h7 _ _
      (tab14_6 q h6 h7).1 (tab14_6 q h6 h7).2
  · exact piece_apply _ _ r q 7 (by simp) 9 49 50 v0 _ _ _ rfl 119 rfl h7 (by omega) _ _
      (tab14_7 q h7 (by omega)).1 (tab14_7 q h7 (by omega)).2

theorem tab15_0 : ∀ q : Fin 96, 0 ≤ q.val → q.val < 0 + 5 →
    fst (128 * 15 + q.val) = 49 ∧ snd (128 * 15 + q.val) = 59 + (q.val - 0) := by
  decide +kernel

theorem tab15_1 : ∀ q : Fin 96, 5 ≤ q.val → q.val < 5 + 13 →
    fst (128 * 15 + q.val) = 50 ∧ snd (128 * 15 + q.val) = 51 + (q.val - 5) := by
  decide +kernel

theorem tab15_2 : ∀ q : Fin 96, 18 ≤ q.val → q.val < 18 + 12 →
    fst (128 * 15 + q.val) = 51 ∧ snd (128 * 15 + q.val) = 52 + (q.val - 18) := by
  decide +kernel

theorem tab15_3 : ∀ q : Fin 96, 30 ≤ q.val → q.val < 30 + 11 →
    fst (128 * 15 + q.val) = 52 ∧ snd (128 * 15 + q.val) = 53 + (q.val - 30) := by
  decide +kernel

theorem tab15_4 : ∀ q : Fin 96, 41 ≤ q.val → q.val < 41 + 10 →
    fst (128 * 15 + q.val) = 53 ∧ snd (128 * 15 + q.val) = 54 + (q.val - 41) := by
  decide +kernel

theorem tab15_5 : ∀ q : Fin 96, 51 ≤ q.val → q.val < 51 + 9 →
    fst (128 * 15 + q.val) = 54 ∧ snd (128 * 15 + q.val) = 55 + (q.val - 51) := by
  decide +kernel

theorem tab15_6 : ∀ q : Fin 96, 60 ≤ q.val → q.val < 60 + 8 →
    fst (128 * 15 + q.val) = 55 ∧ snd (128 * 15 + q.val) = 56 + (q.val - 60) := by
  decide +kernel

theorem tab15_7 : ∀ q : Fin 96, 68 ≤ q.val → q.val < 68 + 7 →
    fst (128 * 15 + q.val) = 56 ∧ snd (128 * 15 + q.val) = 57 + (q.val - 68) := by
  decide +kernel

theorem tab15_8 : ∀ q : Fin 96, 75 ≤ q.val → q.val < 75 + 6 →
    fst (128 * 15 + q.val) = 57 ∧ snd (128 * 15 + q.val) = 58 + (q.val - 75) := by
  decide +kernel

theorem tab15_9 : ∀ q : Fin 96, 81 ≤ q.val → q.val < 81 + 5 →
    fst (128 * 15 + q.val) = 58 ∧ snd (128 * 15 + q.val) = 59 + (q.val - 81) := by
  decide +kernel

theorem tab15_10 : ∀ q : Fin 96, 86 ≤ q.val → q.val < 86 + 4 →
    fst (128 * 15 + q.val) = 59 ∧ snd (128 * 15 + q.val) = 60 + (q.val - 86) := by
  decide +kernel

theorem tab15_11 : ∀ q : Fin 96, 90 ≤ q.val → q.val < 90 + 3 →
    fst (128 * 15 + q.val) = 60 ∧ snd (128 * 15 + q.val) = 61 + (q.val - 90) := by
  decide +kernel

theorem tab15_12 : ∀ q : Fin 96, 93 ≤ q.val → q.val < 93 + 2 →
    fst (128 * 15 + q.val) = 61 ∧ snd (128 * 15 + q.val) = 62 + (q.val - 93) := by
  decide +kernel

theorem tab15_13 : ∀ q : Fin 96, 95 ≤ q.val → q.val < 95 + 1 →
    fst (128 * 15 + q.val) = 62 ∧ snd (128 * 15 + q.val) = 63 + (q.val - 95) := by
  decide +kernel

set_option maxHeartbeats 1600000 in
/-- Chunk 15 (output channels 1920 to 2015): its 14 strips are the reference's pairs at those channels. -/
theorem chunk15 (v0 : Vec Ideal S1024x64 .f32) (r : Fin 1024) (q : Fin 96) :
    k0_pay1 (F := Ideal) (k0_pay2 v0) (k0_pay26 (k0_pay2 v0)) (k0_pay27 (k0_pay2 v0)) (k0_pay28 (k0_pay2 v0)) (k0_pay29 (k0_pay2 v0)) (k0_pay30 (k0_pay2 v0)) (k0_pay31 (k0_pay2 v0)) (ix2 r q) = SpecB v0 (ix2 r (⟨128 * 15 + q.val, by omega⟩ : Fin 2016)) := by
  rw [specB_ix2]
  unfold k0_pay1 k0_pay26 k0_pay27 k0_pay28 k0_pay29 k0_pay30 k0_pay31
  rw [pay2_eq]
  rcases Nat.lt_or_ge q.val 5 with h1 | h1
  · exact piece_apply _ _ r q 0 (by simp) 5 49 59 v0 _ _ _ rfl 0 rfl (Nat.zero_le _) h1 _ _
      (tab15_0 q (Nat.zero_le _) h1).1 (tab15_0 q (Nat.zero_le _) h1).2
  rcases Nat.lt_or_ge q.val 18 with h2 | h2
  · exact piece_apply _ _ r q 1 (by simp) 13 50 51 v0 _ _ _ rfl 5 rfl h1 h2 _ _
      (tab15_1 q h1 h2).1 (tab15_1 q h1 h2).2
  rcases Nat.lt_or_ge q.val 30 with h3 | h3
  · exact piece_apply _ _ r q 2 (by simp) 12 51 52 v0 _ _ _ rfl 18 rfl h2 h3 _ _
      (tab15_2 q h2 h3).1 (tab15_2 q h2 h3).2
  rcases Nat.lt_or_ge q.val 41 with h4 | h4
  · exact piece_apply _ _ r q 3 (by simp) 11 52 53 v0 _ _ _ rfl 30 rfl h3 h4 _ _
      (tab15_3 q h3 h4).1 (tab15_3 q h3 h4).2
  rcases Nat.lt_or_ge q.val 51 with h5 | h5
  · exact piece_apply _ _ r q 4 (by simp) 10 53 54 v0 _ _ _ rfl 41 rfl h4 h5 _ _
      (tab15_4 q h4 h5).1 (tab15_4 q h4 h5).2
  rcases Nat.lt_or_ge q.val 60 with h6 | h6
  · exact piece_apply _ _ r q 5 (by simp) 9 54 55 v0 _ _ _ rfl 51 rfl h5 h6 _ _
      (tab15_5 q h5 h6).1 (tab15_5 q h5 h6).2
  rcases Nat.lt_or_ge q.val 68 with h7 | h7
  · exact piece_apply _ _ r q 6 (by simp) 8 55 56 v0 _ _ _ rfl 60 rfl h6 h7 _ _
      (tab15_6 q h6 h7).1 (tab15_6 q h6 h7).2
  rcases Nat.lt_or_ge q.val 75 with h8 | h8
  · exact piece_apply _ _ r q 7 (by simp) 7 56 57 v0 _ _ _ rfl 68 rfl h7 h8 _ _
      (tab15_7 q h7 h8).1 (tab15_7 q h7 h8).2
  rcases Nat.lt_or_ge q.val 81 with h9 | h9
  · exact piece_apply _ _ r q 8 (by simp) 6 57 58 v0 _ _ _ rfl 75 rfl h8 h9 _ _
      (tab15_8 q h8 h9).1 (tab15_8 q h8 h9).2
  rcases Nat.lt_or_ge q.val 86 with h10 | h10
  · exact piece_apply _ _ r q 9 (by simp) 5 58 59 v0 _ _ _ rfl 81 rfl h9 h10 _ _
      (tab15_9 q h9 h10).1 (tab15_9 q h9 h10).2
  rcases Nat.lt_or_ge q.val 90 with h11 | h11
  · exact piece_apply _ _ r q 10 (by simp) 4 59 60 v0 _ _ _ rfl 86 rfl h10 h11 _ _
      (tab15_10 q h10 h11).1 (tab15_10 q h10 h11).2
  rcases Nat.lt_or_ge q.val 93 with h12 | h12
  · exact piece_apply _ _ r q 11 (by simp) 3 60 61 v0 _ _ _ rfl 90 rfl h11 h12 _ _
      (tab15_11 q h11 h12).1 (tab15_11 q h11 h12).2
  rcases Nat.lt_or_ge q.val 95 with h13 | h13
  · exact piece_apply _ _ r q 12 (by simp) 2 61 62 v0 _ _ _ rfl 93 rfl h12 h13 _ _
      (tab15_12 q h12 h13).1 (tab15_12 q h12 h13).2
  · exact piece_apply _ _ r q 13 (by simp) 1 62 63 v0 _ _ _ rfl 95 rfl h13 (by omega) _ _
      (tab15_13 q h13 (by omega)).1 (tab15_13 q h13 (by omega)).2

end Cert.KernelIdeal.Chunks

end
-- ==== Proof.Block.lean ====
/-
  What one grid point leaves in the output's staging block.

  The body stores the `[1024, 2016]` output block in sixteen column chunks (fifteen of 128 channels, one of 96). Each
  chunk's payload is the block specification `SpecB` restricted to the chunk's columns (the chunk lemmas), the chunks
  cover the block, so the block the point leaves is `SpecB` of the input block: row `r`, channel `k` holds
  `x[r, fst k] * x[r, snd k]`.
-/
import proofs.«426617_j8375186227508_3_alg».proof.Proof.Gen.KernelIdeal.Frame
import proofs.«426617_j8375186227508_3_alg».proof.Proof.ChunksA
import proofs.«426617_j8375186227508_3_alg».proof.Proof.ChunksB
import proofs.«426617_j8375186227508_3_alg».proof.Proof.ChunksC
import proofs.«426617_j8375186227508_3_alg».proof.Proof.ChunksD
import Idealize.ShloMosaic.Lib.Pipeline.Value
import Idealize.ShloMosaic.Lib.Tactic

set_option maxRecDepth 16384

noncomputable section

namespace Cert.KernelIdeal.Block

open Idealize.ShloMosaic Idealize.ShloMosaic.TcCoe Idealize.ShloMosaic.Tactic Idealize.ShloMosaic.ValueIdx
open Idealize.SL.Sem
open Cert.KernelIdeal Cert.KernelIdeal.Gen Cert.KernelIdeal.Chunks Cert.Pairs

theorem hz : (![0, 0] : Fin 2 → Nat) = fun _ => 0 := funext fun a => by fin_cases a <;> rfl

/-- Position `(r, q)` of the store that starts at column `o` is position `(r, o + q)` of the block. -/
theorem emb_store {W : Nat} (o : Nat)
    (inb : ∀ a, (![0, o] : Fin 2 → Nat) a + (![1024, W] : Fin 2 → Nat) a ≤ S1024x2016.size a)
    (r : Fin 1024) (q : Fin W) (k : Fin 2016) (hk : k.val = o + q.val) :
    (Rect.unit (s := S1024x2016) ![0, o] ![1024, W] inb).emb (ix2 r q) = ix2 r k := by
  funext a
  apply Fin.ext
  match a with
  | ⟨0, _⟩ => show 0 + 1 * r.val = r.val; omega
  | ⟨1, _⟩ => show o + 1 * q.val = k.val; omega

/-- Every store's payload is the block specification at the store's columns. -/
theorem pieces_spec (c : Dev nD) (i : grid0.Coords) (arg1 : Memref sig .tc .vmem S1024x64 .f32) (harg1 : arg1.IsWhole)
    (arg2 : Memref sig .tc .vmem S1024x2016 .f32) (harg2 : arg2.IsWhole) (x0 : Vec Ideal S1024x64 .f32) :
    ∀ p ∈ (kernelRun0_A (F := Ideal) c i arg1 harg1 arg2 harg2 x0).1, ∀ x : p.1.shape.Idx, p.2 x = SpecB x0 (p.1.emb x) := by
  unfold kernelRun0_A
  dsimp only
  sl_unfold_words
  simp only [View.readAt_eq_ld, harg1.read_unread, View.ld_unit_zero (S := S1024x64) hz]
  intro p hp
  simp only [List.mem_cons, List.mem_nil_iff, or_false] at hp
  rcases hp with rfl | rfl | rfl | rfl | rfl | rfl | rfl | rfl | rfl | rfl | rfl | rfl | rfl | rfl | rfl | rfl
  · intro x
    obtain ⟨r, q, rfl⟩ : ∃ (r : Fin 1024) (q : Fin 96), x = ix2 r q := ⟨x 0, x 1, eq_ix2 x⟩
    rw [emb_store 1920 _ r q ⟨128 * 15 + q.val, by omega⟩ rfl]
    exact chunk15 x0 r q
  · intro x
    obtain ⟨r, q, rfl⟩ : ∃ (r : Fin 1024) (q : Fin 128), x = ix2 r q := ⟨x 0, x 1, eq_ix2 x⟩
    rw [emb_store 1792 _ r q ⟨128 * 14 + q.val, by omega⟩ rfl]
    exact chunk14 x0 r q
  · intro x
    obtain ⟨r, q, rfl⟩ : ∃ (r : Fin 1024) (q : Fin 128), x = ix2 r q := ⟨x 0, x 1, eq_ix2 x⟩
    rw [emb_store 1664 _ r q ⟨128 * 13 + q.val, by omega⟩ rfl]
    exact chunk13 x0 r q
  · intro x
    obtain ⟨r, q, rfl⟩ : ∃ (r : Fin 1024) (q : Fin 128), x = ix2 r q := ⟨x 0, x 1, eq_ix2 x⟩
    rw [emb_store 1536 _ r q ⟨128 * 12 + q.val, by omega⟩ rfl]
    exact chunk12 x0 r q
  · intro x
    obtain ⟨r, q, rfl⟩ : ∃ (r : Fin 1024) (q : Fin 128), x = ix2 r q := ⟨x 0, x 1, eq_ix2 x⟩
    rw [emb_store 1408 _ r q ⟨128 * 11 + q.val, by omega⟩ rfl]
    exact chunk11 x0 r q
  · intro x
    obtain ⟨r, q, rfl⟩ : ∃ (r : Fin 1024) (q : Fin 128), x = ix2 r q := ⟨x 0, x 1, eq_ix2 x⟩
    rw [emb_store 1280 _ r q ⟨128 * 10 + q.val, by omega⟩ rfl]
    exact chunk10 x0 r q
  · intro x
    obtain ⟨r, q, rfl⟩ : ∃ (r : Fin 1024) (q : Fin 128), x = ix2 r q := ⟨x 0, x 1, eq_ix2 x⟩
    rw [emb_store 1152 _ r q ⟨128 * 9 + q.val, by omega⟩ rfl]
    exact chunk9 x0 r q
  · intro x
    obtain ⟨r, q, rfl⟩ : ∃ (r : Fin 1024) (q : Fin 128), x = ix2 r q := ⟨x 0, x 1, eq_ix2 x⟩
    rw [emb_store 1024 _ r q ⟨128 * 8 + q.val, by omega⟩ rfl]
    exact chunk8 x0 r q
  · intro x
    obtain ⟨r, q, rfl⟩ : ∃ (r : Fin 1024) (q : Fin 128), x = ix2 r q := ⟨x 0, x 1, eq_ix2 x⟩
    rw [emb_store 896 _ r q ⟨128 * 7 + q.val, by omega⟩ rfl]
    exact chunk7 x0 r q
  · intro x
    obtain ⟨r, q, rfl⟩ : ∃ (r : Fin 1024) (q : Fin 128), x = ix2 r q := ⟨x 0, x 1, eq_ix2 x⟩
    rw [emb_store 768 _ r q ⟨128 * 6 + q.val, by omega⟩ rfl]
    exact chunk6 x0 r q
  · intro x
    obtain ⟨r, q, rfl⟩ : ∃ (r : Fin 1024) (q : Fin 128), x = ix2 r q := ⟨x 0, x 1, eq_ix2 x⟩
    rw [emb_store 640 _ r q ⟨128 * 5 + q.val, by omega⟩ rfl]
    exact chunk5 x0 r q
  · intro x
    obtain ⟨r, q, rfl⟩ : ∃ (r : Fin 1024) (q : Fin 128), x = ix2 r q := ⟨x 0, x 1, eq_ix2 x⟩
    rw [emb_store 512 _ r q ⟨128 * 4 + q.val, by omega⟩ rfl]
    exact chunk4 x0 r q
  · intro x
    obtain ⟨r, q, rfl⟩ : ∃ (r : Fin 1024) (q : Fin 128), x = ix2 r q := ⟨x 0, x 1, eq_ix2 x⟩
    rw [emb_store 384 _ r q ⟨128 * 3 + q.val, by omega⟩ rfl]
    exact chunk3 x0 r q
  · intro x
    obtain ⟨r, q, rfl⟩ : ∃ (r : Fin 1024) (q : Fin 128), x = ix2 r q := ⟨x 0, x 1, eq_ix2 x⟩
    rw [emb_store 256 _ r q ⟨128 * 2 + q.val, by omega⟩ rfl]
    exact chunk2 x0 r q
  · intro x
    obtain ⟨r, q, rfl⟩ : ∃ (r : Fin 1024) (q : Fin 128), x = ix2 r q := ⟨x 0, x 1, eq_ix2 x⟩
    rw [emb_store 128 _ r q ⟨128 * 1 + q.val, by omega⟩ rfl]
    exact chunk1 x0 r q
  · intro x
    obtain ⟨r, q, rfl⟩ : ∃ (r : Fin 1024) (q : Fin 128), x = ix2 r q := ⟨x 0, x 1, eq_ix2 x⟩
    rw [emb_store 0 _ r q ⟨128 * 0 + q.val, by omega⟩ (by simp)]
    exact chunk0 x0 r q

/-- The output block a point leaves is the block specification of its input block. -/
theorem out_block (c : Dev nD) (i : grid0.Coords) (arg1 : Memref sig .tc .vmem S1024x64 .f32) (harg1 : arg1.IsWhole)
    (arg2 : Memref sig .tc .vmem S1024x2016 .f32) (harg2 : arg2.IsWhole) (x0 : Vec Ideal S1024x64 .f32) :
    out0_A_1 (F := Ideal) c i arg1 harg1 arg2 harg2 x0 = SpecB x0 := by
  unfold out0_A_1
  rw [View.read_writes_eq_canon _ _ _ (cover0_A_1 c i arg1 harg1 arg2 harg2 x0)]
  funext y
  exact View.canon_apply_of_pieces (SpecB x0) _ (pieces_spec c i arg1 harg1 arg2 harg2 x0) y
    (cover0_A_1 c i arg1 harg1 arg2 harg2 x0 y)

end Cert.KernelIdeal.Block

end
-- ==== Proof.Array.lean ====
/-
  The kernel's value: the program's result array is the specification of its argument.

  The program flattens the `[16, 64, 64, 64]` argument to `[65536, 64]`, runs the pallas_call over 64 row blocks of
  1024 rows, and reshapes the `[65536, 2016]` result to `[16, 64, 64, 2016]`. Point `t` reads rows
  `1024 t … 1024 t + 1023` of the flattened argument and writes back the same rows of the result, which by the block
  lemma hold `x[n, fst k] * x[n, snd k]`; the 64 blocks cover the result array. Both reshapes keep the row-major
  position, and row `n = (b * 64 + h) * 64 + w` of the flattened arrays is position `(b, h, w)` of the 4-D ones.
-/
import proofs.«426617_j8375186227508_3_alg».proof.Proof.Block
import Idealize.ShloMosaic.Lib.StableHlo.Run

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Block Cert.KernelIdeal.Chunks Cert.Pairs

variable (m : (ℓ : Loc nD τ sig) → Buf (Elt Ideal) ℓ) (ρ : Dev nD → PrngReg)

/-- The flattened argument, as the region finds it. -/
abbrev xarr (c : Dev nD) : Vec Ideal S65536x64 .f32 := V m c main_v0

/-- The flattened specification at explicit coordinates. -/
theorem spec2_ix2 (x : (⟨2, ![65536, 64]⟩ : Shape).Idx → EReal) (n : Fin 65536) (k : Fin 2016) :
    Spec2 x (ix2 n k) = x (ix2 n (fstF k)) * x (ix2 n (sndF k)) := rfl

/-- Point `t` reads block `(t, 0)` of the flattened argument and writes block `(t, 0)` of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem t_lt (t : Fin cfg0.N) : t.val < 64 := by
  have h : t.val < cfg0.N := t.isLt
  have e : cfg0.N = 64 := N_0
  omega

/-- The input block at point `t` is rows `1024 t + r` of the flattened argument. -/
theorem iblk_apply (c : Dev nD) (t : Fin cfg0.N) (r : Fin 1024) (e : Fin 64) (n : Fin 65536)
    (hn : n.val = 1024 * t.val + r.val) :
    (iblk m c 0 t : Vec Ideal S1024x64 .f32) (ix2 r e) = xarr m c (ix2 n e) := by
  obtain ⟨e0, e1, -, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * r.val = n.val; rw [e0, hn]; omega
  | ⟨1, _⟩ => show win0_0.index t (1 : Fin 2) * 64 + 1 * e.val = e.val; rw [e1]; omega

/-- Position `(r, k)` of the output block at point `t` is position `(1024 t + r, k)` of the result array. -/
theorem oblk_emb (t : Fin cfg0.N) (r : Fin 1024) (k : Fin 2016) (n : Fin 65536) (hn : n.val = 1024 * t.val + r.val) :
    ((cfg0.win 1).blk t).view.emb (ix2 r k) = (ix2 n k : S65536x2016.Idx) := by
  obtain ⟨-, -, e2, e3⟩ := idx_facts t
  funext a
  apply Fin.ext
  match a with
  | ⟨0, _⟩ => show win0_1.index t (0 : Fin 2) * 1024 + 1 * r.val = n.val; rw [e2, hn]; omega
  | ⟨1, _⟩ => show win0_1.index t (1 : Fin 2) * 2016 + 1 * k.val = k.val; rw [e3]; omega

/-- What point `t` writes back is block `t` of the flattened specification of the flattened argument. -/
theorem flushed_eq (c : Dev nD) (t : Fin cfg0.N) :
    (dats m 0 c).flushed 1 t = ((cfg0.win 1).blk t).view.read (Elt Ideal) (Spec2 (xarr m c)) := by
  show (cfg0.win 1).cut (grid0.coords t) ((dats m 0 c).after 1 t) = _
  rw [after0_1]
  unfold outsAt0
  rw [out_block]
  funext j
  obtain ⟨r, k, rfl⟩ : ∃ (r : Fin 1024) (k : Fin 2016), j = ix2 r k := ⟨j 0, j 1, eq_ix2 j⟩
  have hlt := t_lt t
  rw [View.read_apply, oblk_emb t r k ⟨1024 * t.val + r.val, by omega⟩ rfl]
  show SpecB (iblk m c 0 t) (ix2 r k) = Spec2 (xarr m c) (ix2 _ k)
  rw [specB_ix2, spec2_ix2, iblk_apply m c t r (fstF k) ⟨1024 * t.val + r.val, by omega⟩ rfl,
    iblk_apply m c t r (sndF k) ⟨1024 * t.val + r.val, by omega⟩ rfl]

/-- The 64 row blocks cover the result array: row `n` is in block `n / 1024`. -/
theorem cover (i : S65536x2016.Idx) :
    ∃ t : Fin cfg0.N, (cfg0.win 1).flush t = true ∧ i ∈ ((cfg0.win 1).blk t).view.set := by
  have h0 : (i 0 : Nat) < 65536 := (i 0).isLt
  have h1 : (i 1 : Nat) < 2016 := (i 1).isLt
  let t : Fin cfg0.N := ⟨(i 0 : Nat) / 1024, by rw [show cfg0.N = 64 from N_0]; omega⟩
  obtain ⟨-, -, e2, e3⟩ := idx_facts t
  refine ⟨t, flush0_1 t, ?_⟩
  show i ∈ ((View.whole main_v1).slice (win0_1.rect t)).set
  rw [View.set_slice_whole, Rect.mem_set_unit]
  intro a
  match a with
  | ⟨0, _⟩ =>
    show win0_1.index t (0 : Fin 2) * 1024 ≤ (i 0 : Nat) ∧ (i 0 : Nat) < win0_1.index t (0 : Fin 2) * 1024 + 1024
    rw [e2]; show (i 0 : Nat) / 1024 * 1024 ≤ (i 0 : Nat) ∧ (i 0 : Nat) < (i 0 : Nat) / 1024 * 1024 + 1024; omega
  | ⟨1, _⟩ =>
    show win0_1.index t (1 : Fin 2) * 2016 ≤ (i 1 : Nat) ∧ (i 1 : Nat) < win0_1.index t (1 : Fin 2) * 2016 + 2016
    rw [e3]; omega

/-- The result array of the pallas_call after the run. -/
theorem final (c : Dev nD) : (dats m 0 c).arrAt 1 cfg0.N = Spec2 (xarr m c) :=
  (dats m 0 c).arrAt_eq_of_cover 1 (Spec2 (xarr m c)) (fun t _ => flushed_eq m c t) cover

end Cert.KernelIdeal.Hand

end
-- ==== Proof.Reshape.lean ====
/-
  The two reshapes around the pallas_call.

  Flattening `[16, 64, 64, C]` to `[65536, C]` keeps the row-major position: position `(b, h, w, c)` becomes
  `(n, c)` with `n = (b * 64 + h) * 64 + w`. So the flattened specification of the flattened argument, reshaped back
  to four axes, is the specification of the argument.
-/
import proofs.«426617_j8375186227508_3_alg».proof.Proof.Pairs
import Idealize.ShloMosaic.Lib.Pipeline.Value

noncomputable section

namespace Cert.Pairs

open Idealize.ShloMosaic Idealize.ShloMosaic.ValueIdx

/-- The flattened argument at `(n, c)`, `n = (b * 64 + h) * 64 + w`, is the argument at `(b, h, w, c)`. -/
theorem flat_apply (x : (⟨4, ![16, 64, 64, 64]⟩ : Shape).Idx → EReal)
    (h1 : (⟨4, ![16, 64, 64, 64]⟩ : Shape).ShapeCasts ⟨2, ![65536, 64]⟩)
    (b : Fin 16) (h w : Fin 64) (n : Fin 65536) (hn : n.val = (b.val * 64 + h.val) * 64 + w.val) (c : Fin 64) :
    shapeCast ⟨2, ![65536, 64]⟩ x h1 (ix2 n c) = x (ix4 b h w c) :=
  shapeCast_apply x h1 (ix2 n c) (ix4 b h w c) (by
    rw [Shape.rowMajor_val_four, Shape.rowMajor_val_two]
    show ((b.val * 64 + h.val) * 64 + w.val) * 64 + c.val = n.val * 64 + c.val
    rw [hn])

/-- Flatten, take the flattened specification, reshape back: the specification. -/
theorem reshape_spec (x : (⟨4, ![16, 64, 64, 64]⟩ : Shape).Idx → EReal)
    (h1 : (⟨4, ![16, 64, 64, 64]⟩ : Shape).ShapeCasts ⟨2, ![65536, 64]⟩)
    (h2 : (⟨2, ![65536, 2016]⟩ : Shape).ShapeCasts ⟨4, ![16, 64, 64, 2016]⟩) :
    shapeCast ⟨4, ![16, 64, 64, 2016]⟩ (Spec2 (shapeCast ⟨2, ![65536, 64]⟩ x h1)) h2 = Spec x := by
  funext j
  obtain ⟨b, h, w, k, rfl⟩ : ∃ (b : Fin 16) (h w : Fin 64) (k : Fin 2016), j = ix4 b h w k :=
    ⟨j 0, j 1, j 2, j 3, eq_ix4 j⟩
  have hb := b.isLt
  have hh := h.isLt
  have hw := w.isLt
  have hn : (b.val * 64 + h.val) * 64 + w.val < 65536 := by omega
  rw [shapeCast_apply (Spec2 (shapeCast ⟨2, ![65536, 64]⟩ x h1)) h2 (ix4 b h w k)
    (ix2 (⟨(b.val * 64 + h.val) * 64 + w.val, hn⟩ : Fin 65536) k) (by
      rw [Shape.rowMajor_val_two, Shape.rowMajor_val_four]
      show ((b.val * 64 + h.val) * 64 + w.val) * 2016 + k.val = ((b.val * 64 + h.val) * 64 + w.val) * 2016 + k.val
      rfl)]
  show shapeCast ⟨2, ![65536, 64]⟩ x h1 (ix2 _ (fstF k)) * shapeCast ⟨2, ![65536, 64]⟩ x h1 (ix2 _ (sndF k))
    = x (ix4 b h w (fstF k)) * x (ix4 b h w (sndF k))
  rw [flat_apply x h1 b h w _ rfl (fstF k), flat_apply x h1 b h w _ rfl (sndF k)]

end Cert.Pairs

end
-- ==== Proof.KRun.lean ====
/-
  The kernel program's run, read: its result array is the specification of its argument.

  Before the region the program flattens the argument; after it, it reshapes the pallas_call's result array to four
  axes. The region leaves the flattened specification of the flattened argument in that array (`final`), and the two
  reshapes turn it into the specification of the argument (`reshape_spec`).
-/
import proofs.«426617_j8375186227508_3_alg».proof.Proof.Array
import proofs.«426617_j8375186227508_3_alg».proof.Proof.Reshape

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.Pairs

variable (m : (ℓ : Loc nD τ sig) → Buf (Elt Ideal) ℓ) (ρ : Dev nD → PrngReg)

/-- The region finds the argument flattened to `[65536, 64]`. -/
theorem xarr_eq (c : Dev nD) :
    xarr m c = shapeCast S65536x64 (m ((c : Thread nD τ).loc main_arg0)) shapeCasts_S16x64x64x64_S65536x64 := by
  show StableHlo.after hostOps0 (fun b => m (c, b)) (Proc.devRef .tc main_v0) = _
  after_results
  rfl

/-- The program's result is the pallas_call's result array reshaped to four axes. -/
theorem tail_eq (c : Dev nD) :
    (Pipeline.afterTail₀ cfgs (dats m) 0 (V0 m) [hostOps1] c main_v2 : S16x64x64x2016.Idx → Elt Ideal .f32)
      = shapeCast S16x64x64x2016 ((dats m 0 c).arrAt 1 cfg0.N) shapeCasts_S65536x2016_S16x64x64x2016 := by
  unfold Pipeline.afterTail₀
  show StableHlo.after hostOps1 _ (Proc.devRef .tc main_v2) = _
  after_results
  have e : (Pipeline.withArrays (cfgs 0).spec c (V0 m c) (fun w => (dats m 0 c).arrAt w (cfgs 0).N)
      (Proc.devRef .tc main_v1) : S65536x2016.Idx → Elt Ideal .f32) = (dats m 0 c).arrAt 1 cfg0.N :=
    Pipeline.withArrays_arr spec0 launch0.win.arr_inj c _ _ 1
  funext i
  show shapeCast S16x64x64x2016 (Pipeline.withArrays (cfgs 0).spec c (V0 m c) (fun w => (dats m 0 c).arrAt w (cfgs 0).N)
      (Proc.devRef .tc main_v1)) shapeCasts_S65536x2016_S16x64x64x2016 i = _
  rw [e]

/-- So the program's result is the specification of its argument. -/
theorem result_eq (c : Dev nD) :
    (Pipeline.afterTail₀ cfgs (dats m) 0 (V0 m) [hostOps1] c main_v2 : S16x64x64x2016.Idx → Elt Ideal .f32)
      = Spec (m ((c : Thread nD τ).loc main_arg0)) := by
  rw [tail_eq, final, xarr_eq]
  exact reshape_spec _ _ _

/-- Every weakly fair execution of the kernel program terminates with its result at the specification of the
    argument, the argument unchanged. -/
theorem run : θ_run defs (onTc (τ := τ) (main (F := Ideal))) ⟨m, fun _ => 0, ρ⟩ fun r => ∀ c : Dev nD,
      r.2.mem ((c.tc : Thread nD τ).loc main_v2) = Spec (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.Hand

end
-- ==== Proof.RefRun.lean ====
/-
  The reference program's run, read back as one pure term.

  The reference is a straight line of 22 host operations: two literal index tables, each wrapped the way a
  negative index is wrapped (`c + 64` where `c < 0`, else `c`) and laid out as a `[2016, 1]` column of start
  indices; two gathers of the input along its channel axis at those columns; and the elementwise product of the
  two gathered arrays. Every execution ends with the result buffer at that composed term of the input's launch
  contents (`refTerm`), the input unchanged.
-/
import proofs.«426617_j8375186227508_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The wrap of a table of channel indices: entry `c` becomes `c + 64` where `c < 0` (signed), else stays `c`. -/
def wrap (c : IVec S2016 32) : IVec S2016 32 :=
  select (cmpi .slt c (broadcastInDim S2016 ![] bcast_S_S2016 (constantI S_ 32 0#32)))
    (addi c (broadcastInDim S2016 ![] bcast_S_S2016 (constantI S_ 32 64#32))) c

/-- The first table's start indices: the wrapped table as a `[2016, 1]` column. -/
def idx0 : IVec S2016x1 32 :=
  broadcastInDim S2016x1 ![0] bcast_S2016_S2016x1_0 (wrap fun i => lit0 (S2016.rowMajor i))

/-- The second table's start indices: the wrapped table as a `[2016, 1]` column. -/
def idx1 : IVec S2016x1 32 :=
  broadcastInDim S2016x1 ![0] bcast_S2016_S2016x1_0 (wrap fun i => lit1 (S2016.rowMajor i))

/-- What the reference computes from its input `x`: the product of the gather of `x` along the channel axis at the
    first table's start indices and the gather at the second table's. -/
def refTerm (x : FVec F S16x64x64x64 .f32) : FVec F S16x64x64x2016 .f32 :=
  mulf (Host.gather gather_S16x64x64x64_S2016x1_S16x64x64x2016_012_3_n_n_3_1_1664641 x idx0)
    (Host.gather gather_S16x64x64x64_S2016x1_S16x64x64x2016_012_3_n_n_3_1_1664641 x idx1)

/-- @main's 22 operations, in order. -/
abbrev ops : List (HloOp τ sig (Elt F)) :=
  [ nullary main_c (fun i => lit0 (S2016.rowMajor i)),
    nullary main_c_0 (fun i => lit1 (S2016.rowMajor i)),
    nullary main_c_1 (constantI S_ 32 0#32),
    unary main_c_1 main_v0 (broadcastInDim S2016 ![] bcast_S_S2016 : (⟨S_, .i32⟩ : BufTy).Contents (Elt F) → (⟨S2016, .i32⟩ : BufTy).Contents (Elt F)),
    binary main_c main_v0 main_v1 (cmpi .slt : (⟨S2016, .i32⟩ : BufTy).Contents (Elt F) → (⟨S2016, .i32⟩ : BufTy).Contents (Elt F) → (⟨S2016, .i1⟩ : BufTy).Contents (Elt F)),
    nullary main_c_2 (constantI S_ 32 64#32),
    unary main_c_2 main_v2 (broadcastInDim S2016 ![] bcast_S_S2016 : (⟨S_, .i32⟩ : BufTy).Contents (Elt F) → (⟨S2016, .i32⟩ : BufTy).Contents (Elt F)),
    binary main_c main_v2 main_v3 (addi : (⟨S2016, .i32⟩ : BufTy).Contents (Elt F) → (⟨S2016, .i32⟩ : BufTy).Contents (Elt F) → (⟨S2016, .i32⟩ : BufTy).Contents (Elt F)),
    ternary main_v1 main_v3 main_c main_v4 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v4 main_v5 (broadcastInDim S2016x1 ![0] bcast_S2016_S2016x1_0 : (⟨S2016, .i32⟩ : BufTy).Contents (Elt F) → (⟨S2016x1, .i32⟩ : BufTy).Contents (Elt F)),
    binary main_arg0 main_v5 main_v6 ((fun x i => Host.gather gather_S16x64x64x64_S2016x1_S16x64x64x2016_012_3_n_n_3_1_1664641 x i) : (⟨S16x64x64x64, .f32⟩ : BufTy).Contents (Elt F) → (⟨S2016x1, .i32⟩ : BufTy).Contents (Elt F) → (⟨S16x64x64x2016, .f32⟩ : BufTy).Contents (Elt F)),
    nullary main_c_3 (constantI S_ 32 0#32),
    unary main_c_3 main_v7 (broadcastInDim S2016 ![] bcast_S_S2016 : (⟨S_, .i32⟩ : BufTy).Contents (Elt F) → (⟨S2016, .i32⟩ : BufTy).Contents (Elt F)),
    binary main_c_0 main_v7 main_v8 (cmpi .slt : (⟨S2016, .i32⟩ : BufTy).Contents (Elt F) → (⟨S2016, .i32⟩ : BufTy).Contents (Elt F) → (⟨S2016, .i1⟩ : BufTy).Contents (Elt F)),
    nullary main_c_4 (constantI S_ 32 64#32),
    unary main_c_4 main_v9 (broadcastInDim S2016 ![] bcast_S_S2016 : (⟨S_, .i32⟩ : BufTy).Contents (Elt F) → (⟨S2016, .i32⟩ : BufTy).Contents (Elt F)),
    binary main_c_0 main_v9 main_v10 (addi : (⟨S2016, .i32⟩ : BufTy).Contents (Elt F) → (⟨S2016, .i32⟩ : BufTy).Contents (Elt F) → (⟨S2016, .i32⟩ : BufTy).Contents (Elt F)),
    ternary main_v8 main_v10 main_c_0 main_v11 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v11 main_v12 (broadcastInDim S2016x1 ![0] bcast_S2016_S2016x1_0 : (⟨S2016, .i32⟩ : BufTy).Contents (Elt F) → (⟨S2016x1, .i32⟩ : BufTy).Contents (Elt F)),
    binary main_arg0 main_v12 main_v13 ((fun x i => Host.gather gather_S16x64x64x64_S2016x1_S16x64x64x2016_012_3_n_n_3_1_1664641 x i) : (⟨S16x64x64x64, .f32⟩ : BufTy).Contents (Elt F) → (⟨S2016x1, .i32⟩ : BufTy).Contents (Elt F) → (⟨S16x64x64x2016, .f32⟩ : BufTy).Contents (Elt F)),
    binary main_v6 main_v13 main_v14 (mulf : (⟨S16x64x64x2016, .f32⟩ : BufTy).Contents (Elt F) → (⟨S16x64x64x2016, .f32⟩ : BufTy).Contents (Elt F) → (⟨S16x64x64x2016, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub ..,
    nullary_bufs_sub .., unary_bufs_sub .., binary_bufs_sub .., ternary_bufs_sub .., unary_bufs_sub .., binary_bufs_sub ..,
    binary_bufs_sub ..⟩

/-- On every device, for any float values, from any memory with zero counters: every weakly fair execution of
    @main terminates with the result at `refTerm` of the input's launch contents and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (by after_results; rfl),
      (h c main_arg0).trans (by after_results)⟩)
    (run_seq scopedRefs_eq scopedSems_eq defs main (fun _ => ops) main_eq (fun _ => ops_sub) m ρ)

end Cert.ReferenceIdeal.HandRun

end
-- ==== Proof.RefValue.lean ====
/-
  The reference's term is the specification.

  `refTerm x` multiplies two gathers of the input `x` along its channel axis. Read at an output index
  `(b, h, w, k)`, a gather with these dimension numbers — axes 0, 1, 2 offset axes, axis 3 collapsed and the only
  axis a start index moves — is `x` at `(b, h, w, c)`, where `c` is entry `[k, 0]` of the start indices read as a
  signed number and clamped into `[0, 63]`. Entry `[k, 0]` of either column of start indices is the wrapped word of
  entry `k` of its literal table, and one decision over the 2016 entries of each table says that the wrapped,
  clamped entry is the table's entry as a number: `fst k`, `snd k`. So the product is
  `x[b, h, w, fst k] * x[b, h, w, snd k]`, the specification.
-/
import proofs.«426617_j8375186227508_3_alg».proof.Proof.RefRun
import proofs.«426617_j8375186227508_3_alg».proof.Proof.Pairs
import Idealize.ShloMosaic.Lib.ValueIdx
import Idealize.ShloMosaic.Lib.Pipeline.Value

noncomputable section

namespace Cert.ReferenceIdeal.HandValue

open Cert.ReferenceIdeal Cert.ReferenceIdeal.Gen Cert.ReferenceIdeal.HandRun Idealize.ShloMosaic Idealize.ShloMosaic.ValueIdx

/-! ## The gather along the channel axis, read at an index -/

/-- The reference's gather: offset axes 0, 1, 2; axis 3 collapsed and moved by the start index; the start indices a
    `[2016, 1]` column whose axis 1 is the index vector. -/
abbrev chanDims : GatherDims S16x64x64x64 S2016x1 S16x64x64x2016 :=
  gather_S16x64x64x64_S2016x1_S16x64x64x2016_012_3_n_n_3_1_1664641

/-- Output index `(b, h, w, k)` reads its one start-index component at `[k, 0]`. -/
theorem siIdx_eq (b : Fin 16) (h : Fin 64) (v : Fin 64) (k : Fin 2016) (c : Fin chanDims.startIndexMap.length) :
    chanDims.siIdx (ix4 b h v k) c = ix2 k (0 : Fin 1) := by
  funext a; refine Fin.ext ?_
  match a with
  | ⟨0, _⟩ => rfl
  | ⟨1, _⟩ =>
    show c.val = 0
    have := c.isLt
    have hl : chanDims.startIndexMap.length = 1 := rfl
    omega

/-- Off the channel axis no start index is read: the slice starts at `0`. -/
theorem start_off {w : Nat} (j : S16x64x64x2016.Idx) (idx : IVec S2016x1 w) (a : Fin 4) (ha : a ≠ 3) :
    chanDims.start j idx a = 0 := by
  unfold GatherDims.start
  exact dif_neg fun hm => ha (List.mem_singleton.mp hm)

/-- On the channel axis the slice starts at entry `[k, 0]` of the start indices, read signed and clamped into
    `[0, 63]`. -/
theorem start_chan {w : Nat} (b : Fin 16) (h : Fin 64) (v : Fin 64) (k : Fin 2016) (idx : IVec S2016x1 w) :
    chanDims.start (ix4 b h v k) idx (3 : Fin 4) = min (idx (ix2 k (0 : Fin 1))).toInt.toNat 63 := by
  unfold GatherDims.start
  have hm : (3 : Fin 4) ∈ chanDims.startIndexMap := List.mem_singleton.mpr rfl
  rw [dif_pos hm, siIdx_eq]
  rfl

/-- The offset on each of the three offset axes is the output index's own coordinate … -/
theorem off0 (b : Fin 16) (h : Fin 64) (v : Fin 64) (k : Fin 2016) : chanDims.offCoord (ix4 b h v k) (0 : Fin 4) = b.val := rfl
theorem off1 (b : Fin 16) (h : Fin 64) (v : Fin 64) (k : Fin 2016) : chanDims.offCoord (ix4 b h v k) (1 : Fin 4) = h.val := rfl
theorem off2 (b : Fin 16) (h : Fin 64) (v : Fin 64) (k : Fin 2016) : chanDims.offCoord (ix4 b h v k) (2 : Fin 4) = v.val := rfl
/-- … and `0` on the collapsed channel axis. -/
theorem off3 (j : S16x64x64x2016.Idx) : chanDims.offCoord j (3 : Fin 4) = 0 :=
  GatherDims.offCoord_eq_zero _ _ _ (fun hm => ((GatherDims.mem_sKept _ _).mp hm).1 (List.mem_singleton.mpr rfl))

/-- THE GATHER READ AT `(b, h, w, k)`: the operand at `(b, h, w, c)`, `c` the start index `idx[k, 0]` read signed and
    clamped into `[0, 63]`. -/
theorem gather_chan_apply {α : Type} {w : Nat} (x : S16x64x64x64.Idx → α) (idx : IVec S2016x1 w)
    (b : Fin 16) (h : Fin 64) (v : Fin 64) (k : Fin 2016) :
    Host.gather chanDims x idx (ix4 b h v k)
      = x (ix4 b h v (⟨min (idx (ix2 k (0 : Fin 1))).toInt.toNat 63, by omega⟩ : Fin 64)) := by
  unfold Host.gather
  congr 1
  funext a
  refine Fin.ext ?_
  show chanDims.start (ix4 b h v k) idx a + chanDims.batchCoord (ix4 b h v k) a + chanDims.offCoord (ix4 b h v k) a = _
  rw [GatherDims.batchCoord_eq_zero _ _ _ List.not_mem_nil, Nat.add_zero]
  match a with
  | ⟨0, _⟩ => exact (congrArg₂ (· + ·) (start_off _ idx 0 (by decide)) (off0 b h v k)).trans (Nat.zero_add _)
  | ⟨1, _⟩ => exact (congrArg₂ (· + ·) (start_off _ idx 1 (by decide)) (off1 b h v k)).trans (Nat.zero_add _)
  | ⟨2, _⟩ => exact (congrArg₂ (· + ·) (start_off _ idx 2 (by decide)) (off2 b h v k)).trans (Nat.zero_add _)
  | ⟨3, _⟩ => exact (congrArg₂ (· + ·) (start_chan b h v k idx) (off3 _)).trans (Nat.add_zero _)

/-! ## The start indices at `[k, 0]` -/

/-- The wrap of one index word: `c + 64` where `c < 0` (signed), else `c`. -/
def wrapWord (c : BitVec 32) : BitVec 32 := Scalar.select (IntOp.cmpi .slt c 0#32) (IntOp.addi c 64#32) c

/-- The wrapped table at an entry is the wrap of the entry's word. -/
theorem wrap_apply (c : IVec S2016 32) (i : S2016.Idx) : wrap c i = wrapWord (c i) := rfl

/-- The first column of start indices at `[k, 0]`: the wrapped word of entry `k` of the first table. -/
theorem idx0_apply (k : Fin 2016) : idx0 (ix2 k (0 : Fin 1)) = wrapWord (lit0t k.val) := by
  unfold idx0
  rw [broadcastInDim_apply ![0] bcast_S2016_S2016x1_0 _ (ix2 k (0 : Fin 1)) (ix1 k) (fun a => match a with | ⟨0, _⟩ => rfl),
    wrap_apply]
  exact congrArg wrapWord (congrArg lit0t (Shape.rowMajor_val_one (ix1 k)))

/-- The second column of start indices at `[k, 0]`: the wrapped word of entry `k` of the second table. -/
theorem idx1_apply (k : Fin 2016) : idx1 (ix2 k (0 : Fin 1)) = wrapWord (lit1t k.val) := by
  unfold idx1
  rw [broadcastInDim_apply ![0] bcast_S2016_S2016x1_0 _ (ix2 k (0 : Fin 1)) (ix1 k) (fun a => match a with | ⟨0, _⟩ => rfl),
    wrap_apply]
  exact congrArg wrapWord (congrArg lit1t (Shape.rowMajor_val_one (ix1 k)))

/-! ## The tables: every entry is a channel already, so wrapping and clamping change nothing -/

theorem table0 : ∀ k : Fin 2016, min (wrapWord (lit0t k.val)).toInt.toNat 63 = Cert.Pairs.fst k.val := by decide +kernel

theorem table1 : ∀ k : Fin 2016, min (wrapWord (lit1t k.val)).toInt.toNat 63 = Cert.Pairs.snd k.val := by decide +kernel

/-! ## The reference's term is the specification -/

/-- At every input the reference computes the specification: output channel `k` is the product of input channels
    `fst k` and `snd k`. -/
theorem refTerm_eq (x : FVec Ideal S16x64x64x64 .f32) : Cert.ReferenceIdeal.HandRun.refTerm (F := Ideal) x = Cert.Pairs.Spec x := by
  funext j
  obtain ⟨b, h, v, k, rfl⟩ : ∃ (b : Fin 16) (h : Fin 64) (v : Fin 64) (k : Fin 2016), j = ix4 b h v k :=
    ⟨j 0, j 1, j 2, j 3, eq_ix4 j⟩
  have e0 : (⟨min (idx0 (ix2 k (0 : Fin 1))).toInt.toNat 63, by omega⟩ : Fin 64) = Cert.Pairs.fstF k :=
    Fin.ext ((congrArg (fun c : BitVec 32 => min c.toInt.toNat 63) (idx0_apply k)).trans (table0 k))
  have e1 : (⟨min (idx1 (ix2 k (0 : Fin 1))).toInt.toNat 63, by omega⟩ : Fin 64) = Cert.Pairs.sndF k :=
    Fin.ext ((congrArg (fun c : BitVec 32 => min c.toInt.toNat 63) (idx1_apply k)).trans (table1 k))
  have g0 := gather_chan_apply x idx0 b h v k
  have g1 := gather_chan_apply x idx1 b h v k
  rw [e0] at g0
  rw [e1] at g1
  exact (mulf_apply _ _ _).trans (congrArg₂ (· * ·) g0 g1)

end Cert.ReferenceIdeal.HandValue

end
-- ==== Proof.lean ====
/-
  Triangular pairwise channel product: the Pallas kernel against `inputs[..., II] * inputs[..., JJ]`.

  For an input `x : f32[16, 64, 64, 64]` both programs produce `out[b, h, w, k] = x[b, h, w, i_k] * x[b, h, w, j_k]`,
  `k < 2016`, where `(i_k, j_k)` runs through the pairs `i < j < 64` row by row. The reference reads the pairs from two
  literal index tables and gathers; the kernel never sees the tables: it flattens the input to `[65536, 64]`, and per
  block of 1024 rows writes, for each channel `i`, the strip `x[:, i] * x[:, i + 1 : 64]` at the running column
  offset, cut at multiples of 128 columns so that every store is one aligned chunk. The proof names the common value
  `Spec x` (Pairs.lean) through the reference's tables and shows
    * the reference's run ends at `Spec` of its argument (RefRun.lean, RefValue.lean: the gathers read at an index,
      the tables decided entry by entry);
    * each of the kernel's sixteen chunks is `Spec` restricted to its columns (Strip.lean: a strip at an index;
      Chunks*.lean: per piece of the kernel's plan, the tables hold exactly that piece's pairs), hence each output
      block (Block.lean), the whole result array (Array.lean) and, through the two reshapes, the program's result
      (Reshape.lean, KRun.lean).
  Only multiplication of the same two entries in the same order occurs on both sides, so no finiteness is used.
  The two kernel frames are the generated ones; the reference's frame is its run with the result dropped; the ideal
  pass rewrote nothing, so `preserves` is `True`.
-/
import proofs.«426617_j8375186227508_3_alg».proof.Defs
import proofs.«426617_j8375186227508_3_alg».proof.Proof.Gen.Kernel
import proofs.«426617_j8375186227508_3_alg».proof.Proof.Gen.Kernel.Frame
import proofs.«426617_j8375186227508_3_alg».proof.Proof.Gen.KernelIdeal
import proofs.«426617_j8375186227508_3_alg».proof.Proof.Gen.KernelIdeal.Frame
import proofs.«426617_j8375186227508_3_alg».proof.Proof.Gen.ReferenceIdeal
import proofs.«426617_j8375186227508_3_alg».proof.Proof.Gen.Pre_finite_inputs
import proofs.«426617_j8375186227508_3_alg».proof.Proof.KRun
import proofs.«426617_j8375186227508_3_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its argument as launched. -/
theorem frame_ri : Cert.frame_ReferenceIdeal := fun m ρ _ =>
  (θ_run Cert.ReferenceIdeal.defs _ _).mono (fun _ h c => (h c).2) (Cert.ReferenceIdeal.HandRun.run (F := Ideal) m ρ)

/-- Both programs end with the specification of the common argument. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandValue.refTerm_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
